-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x256 : Shape := ⟨4, ![1, 512, 512, 256]⟩
abbrev S512x512 : Shape := ⟨2, ![512, 512]⟩
abbrev S21x256 : Shape := ⟨2, ![21, 256]⟩
abbrev S_ : Shape := ⟨0, ![]⟩

class Facts : Prop where
  bcast_S_S1x512x512x256 : S_.BroadcastsInDim S1x512x512x256 (![] : Fin 0 → Fin S1x512x512x256.rank)
  reducesTo_S1x512x512x256_S_d0_1_2_3 : S1x512x512x256.ReducesTo [0, 1, 2, 3] S_
  h_S_ : 0 < S_.numel
  bcast_S_S21x256 : S_.BroadcastsInDim S21x256 (![] : Fin 0 → Fin S21x256.rank)
  reducesTo_S21x256_S_d0_1 : S21x256.ReducesTo [0, 1] S_

variable [Facts]

def fn {F : FTy → Type} [FloatOps F] (main_arg0 : FVec F S1x512x512x256 .f32) (main_arg1 : IVec S512x512 32) (main_arg2 : FVec F S21x256 .f32) : IVec S_ 1 :=
  let main_v0 : FVec F S1x512x512x256 .f32 := Host.absf main_arg0
  let main_cst : FVec F S_ .f32 := constant S_ .f32 0x7F800000#32
  let main_v1 : FVec F S1x512x512x256 .f32 := broadcastInDim S1x512x512x256 ![] bcast_S_S1x512x512x256 main_cst
  let main_v2 : IVec S1x512x512x256 1 := cmpf .olt main_v0 main_v1
  let main_c : IVec S_ 1 := constantI S_ 1 1#1
  let main_v3 : IVec S_ 1 := (fun x v => Host.reduce IntOp.andi x v reducesTo_S1x512x512x256_S_d0_1_2_3 h_S_) main_v2 main_c
  let main_v4 : FVec F S21x256 .f32 := Host.absf main_arg2
  let main_cst_0 : FVec F S_ .f32 := constant S_ .f32 0x7F800000#32
  let main_v5 : FVec F S21x256 .f32 := broadcastInDim S21x256 ![] bcast_S_S21x256 main_cst_0
  let main_v6 : IVec S21x256 1 := cmpf .olt main_v4 main_v5
  let main_c_1 : IVec S_ 1 := constantI S_ 1 1#1
  let main_v7 : IVec S_ 1 := (fun x v => Host.reduce IntOp.andi x v reducesTo_S21x256_S_d0_1 h_S_) main_v6 main_c_1
  let main_v8 : IVec S_ 1 := andi main_v3 main_v7
  main_v8
-- ==== Kernel.lean ====
abbrev S1x512x512x256 : Shape := ⟨4, ![1, 512, 512, 256]⟩
abbrev S512x512 : Shape := ⟨2, ![512, 512]⟩
abbrev S21x256 : Shape := ⟨2, ![21, 256]⟩
abbrev S262144x256 : Shape := ⟨2, ![262144, 256]⟩
abbrev S1x262144 : Shape := ⟨2, ![1, 262144]⟩
abbrev S2x22x1024 : Shape := ⟨3, ![2, 22, 1024]⟩
abbrev S2048x256 : Shape := ⟨2, ![2048, 256]⟩
abbrev S1x2048 : Shape := ⟨2, ![1, 2048]⟩
abbrev S1x22x1024 : Shape := ⟨3, ![1, 22, 1024]⟩
abbrev S22x1024 : Shape := ⟨2, ![22, 1024]⟩
abbrev S21x2048 : Shape := ⟨2, ![21, 2048]⟩
abbrev S22x2048 : Shape := ⟨2, ![22, 2048]⟩
abbrev S1024x2048 : Shape := ⟨2, ![1024, 2048]⟩
abbrev S21x1024 : Shape := ⟨2, ![21, 1024]⟩
abbrev S1x1024 : Shape := ⟨2, ![1, 1024]⟩
abbrev S_ : Shape := ⟨0, ![]⟩
abbrev S1024x21 : Shape := ⟨2, ![1024, 21]⟩

abbrev nBuf : Space → Nat
  | .hbm => 20
  | .vmem => 8
  | .smem => 0
  | _ => 0

abbrev bufTy : (tb : Table) → Fin (tcTables nBuf tb) → BufTy
  | .hbm, ⟨0, _⟩ => ⟨S1x512x512x256, .f32⟩
  | .hbm, ⟨1, _⟩ => ⟨S512x512, .i32⟩
  | .hbm, ⟨2, _⟩ => ⟨S21x256, .f32⟩
  | .hbm, ⟨3, _⟩ => ⟨S262144x256, .f32⟩
  | .hbm, ⟨4, _⟩ => ⟨S1x262144, .i32⟩
  | .hbm, ⟨5, _⟩ => ⟨S21x256, .bf16⟩
  | .hbm, ⟨6, _⟩ => ⟨S2x22x1024, .f32⟩
  | .hbm, ⟨7, _⟩ => ⟨S1x22x1024, .f32⟩
  | .hbm, ⟨8, _⟩ => ⟨S22x1024, .f32⟩
  | .hbm, ⟨9, _⟩ => ⟨S1x22x1024, .f32⟩
  | .hbm, ⟨10, _⟩ => ⟨S22x1024, .f32⟩
  | .hbm, ⟨11, _⟩ => ⟨S22x1024, .f32⟩
  | .hbm, ⟨12, _⟩ => ⟨S21x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S21x1024, .f32⟩
  | .hbm, ⟨18, _⟩ => ⟨S21x1024, .f32⟩
  | .hbm, ⟨19, _⟩ => ⟨S1024x21, .f32⟩
  | .local _ .vmem, ⟨0, _⟩ => ⟨S2048x256, .f32⟩
  | .local _ .vmem, ⟨1, _⟩ => ⟨S2048x256, .f32⟩
  | .local _ .vmem, ⟨2, _⟩ => ⟨S1x2048, .i32⟩
  | .local _ .vmem, ⟨3, _⟩ => ⟨S1x2048, .i32⟩
  | .local _ .vmem, ⟨4, _⟩ => ⟨S21x256, .bf16⟩
  | .local _ .vmem, ⟨5, _⟩ => ⟨S1x22x1024, .f32⟩
  | .local _ .vmem, ⟨6, _⟩ => ⟨S1x22x1024, .f32⟩
  | .local _ .vmem, ⟨7, _⟩ => ⟨S22x1024, .f32⟩
  | _, _ => ⟨S1x512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S21x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x22x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x512x512x256_S262144x256 : S1x512x512x256.ShapeCasts S262144x256
  shapeCasts_S512x512_S1x262144 : S512x512.ShapeCasts S1x262144
  bitsLt_bf16_f32 : FTy.bits .bf16 < FTy.bits .f32
  inb_S22x1024_S22x1024_0_0 : ∀ a, (![0, 0] : Fin 2 → Nat) a + S22x1024.size a ≤ S22x1024.size a
  h_S22x1024 : 0 < S22x1024.numel
  shapeCasts_S22x1024_S22x1024 : S22x1024.ShapeCasts S22x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S21x256_S21x256_0_0 : ∀ a, (![0, 0] : Fin 2 → Nat) a + S21x256.size a ≤ S21x256.size a
  h_S21x256 : 0 < S21x256.numel
  shapeCasts_S21x256_S21x256 : S21x256.ShapeCasts S21x256
  concatenates_S21x2048_S1x2048_S22x2048_d0 : Shape.Concatenates [S21x2048, S1x2048] S22x2048 0
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x2048_d0_w32 : S1024x2048.Iotas .tc 32 [0]
  broadcasts_S1x2048_S1024x2048 : S1x2048.Broadcasts S1024x2048
  natLt_1_32 : 1 < 32
  shapeCasts_S22x1024_S1x22x1024 : S22x1024.ShapeCasts S1x22x1024
  inb_S1x22x1024_S1x22x1024_0_0_0 : ∀ a, (![0, 0, 0] : Fin 3 → Nat) a + S1x22x1024.size a ≤ S1x22x1024.size a
  h_S1x22x1024 : 0 < S1x22x1024.numel
  slices_S2x22x1024_S1x22x1024_0_0_0 : S2x22x1024.Slices ![0, 0, 0] S1x22x1024
  shapeCasts_S1x22x1024_S22x1024 : S1x22x1024.ShapeCasts S22x1024
  slices_S2x22x1024_S1x22x1024_1_0_0 : S2x22x1024.Slices ![1, 0, 0] S1x22x1024
  slices_S22x1024_S21x1024_0_0 : S22x1024.Slices ![0, 0] S21x1024
  slices_S22x1024_S1x1024_21_0 : S22x1024.Slices ![21, 0] S1x1024
  bcast_S_S1x1024 : S_.BroadcastsInDim S1x1024 (![] : Fin 0 → Fin S1x1024.rank)
  bcast_S1x1024_S21x1024_0_1 : S1x1024.BroadcastsInDim S21x1024 (![0, 1] : Fin 2 → Fin S21x1024.rank)
  transposes_S21x1024_S1024x21_1_0 : S21x1024.Transposes [1, 0] S1024x21
  dot_S21x256_S2048x256_S21x2048_1_1_0_0_n_n_wf : DotDims.WF S21x256 S2048x256 S21x2048 [1] [1] [0] [0] [] []
  dot_S22x2048_S1024x2048_S22x1024_1_1_0_0_n_n_wf : DotDims.WF S22x2048 S1024x2048 S22x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x262144.size a
  hwx0_1 : ∀ i : grid0.Coords, EltTy.bits .i32 = 32 ∨ (Rect.block (s := S1x262144) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x256.size a ≤ S21x256.size a
  hwx0_2 : ∀ i : grid0.Coords, EltTy.bits .bf16 = 32 ∨ (Rect.block (s := S21x256) S21x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x22x1024.size a ≤ S2x22x1024.size a
  hwx0_3 : ∀ i : grid0.Coords, EltTy.bits .f32 = 32 ∨ (Rect.block (s := S2x22x1024) S1x22x1024.size (cc0_transform_3 i) (hinb0_3 i)).WholeWords (EltTy.packing .f32)

variable [Facts₀]

def dot_S21x256_S2048x256_S21x2048_1_1_0_0_n_n : DotDims S21x256 S2048x256 S21x2048 where
  lhsContracting := [1]
  rhsContracting := [1]
  lhsNonContracting := [0]
  rhsNonContracting := [0]
  lhsBatch := []
  rhsBatch := []
  wf := dot_S21x256_S2048x256_S21x2048_1_1_0_0_n_n_wf
def dot_S22x2048_S1024x2048_S22x1024_1_1_0_0_n_n : DotDims S22x2048 S1024x2048 S22x1024 where
  lhsContracting := [1]
  rhsContracting := [1]
  lhsNonContracting := [0]
  rhsNonContracting := [0]
  lhsBatch := []
  rhsBatch := []
  wf := dot_S22x2048_S1024x2048_S22x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S21x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x22x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x512x512x256 : Shape := ⟨4, ![1, 512, 512, 256]⟩
abbrev S512x512 : Shape := ⟨2, ![512, 512]⟩
abbrev S21x256 : Shape := ⟨2, ![21, 256]⟩
abbrev S262144x256 : Shape := ⟨2, ![262144, 256]⟩
abbrev S262144 : Shape := ⟨1, ![262144]⟩
abbrev S_ : Shape := ⟨0, ![]⟩
abbrev S1024x256 : Shape := ⟨2, ![1024, 256]⟩
abbrev S262144x1 : Shape := ⟨2, ![262144, 1]⟩
abbrev S1024 : Shape := ⟨1, ![1024]⟩
abbrev S1024x1 : Shape := ⟨2, ![1024, 1]⟩
abbrev S256x21 : Shape := ⟨2, ![256, 21]⟩
abbrev S1024x21 : Shape := ⟨2, ![1024, 21]⟩

abbrev nBuf : Space → Nat
  | .hbm => 24
  | .vmem => 0
  | .smem => 0
  | _ => 0

abbrev bufTy : (tb : Table) → Fin (tcTables nBuf tb) → BufTy
  | .hbm, ⟨0, _⟩ => ⟨S1x512x512x256, .f32⟩
  | .hbm, ⟨1, _⟩ => ⟨S512x512, .i32⟩
  | .hbm, ⟨2, _⟩ => ⟨S21x256, .f32⟩
  | .hbm, ⟨3, _⟩ => ⟨S262144x256, .f32⟩
  | .hbm, ⟨4, _⟩ => ⟨S262144, .i32⟩
  | .hbm, ⟨5, _⟩ => ⟨S_, .f32⟩
  | .hbm, ⟨6, _⟩ => ⟨S1024x256, .f32⟩
  | .hbm, ⟨7, _⟩ => ⟨S262144x1, .i32⟩
  | .hbm, ⟨8, _⟩ => ⟨S1024x256, .f32⟩
  | .hbm, ⟨9, _⟩ => ⟨S_, .f32⟩
  | .hbm, ⟨10, _⟩ => ⟨S262144, .f32⟩
  | .hbm, ⟨11, _⟩ => ⟨S_, .f32⟩
  | .hbm, ⟨12, _⟩ => ⟨S1024, .f32⟩
  | .hbm, ⟨13, _⟩ => ⟨S262144x1, .i32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024x1, .f32⟩
  | .hbm, ⟨20, _⟩ => ⟨S1024x256, .f32⟩
  | .hbm, ⟨21, _⟩ => ⟨S1024x256, .f32⟩
  | .hbm, ⟨22, _⟩ => ⟨S256x21, .f32⟩
  | .hbm, ⟨23, _⟩ => ⟨S1024x21, .f32⟩
  | _, _ => ⟨S1x512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  shapeCasts_S1x512x512x256_S262144x256 : S1x512x512x256.ShapeCasts S262144x256
  shapeCasts_S512x512_S262144 : S512x512.ShapeCasts S262144
  bcast_S_S1024x256 : S_.BroadcastsInDim S1024x256 (![] : Fin 0 → Fin S1024x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  transposes_S21x256_S256x21_1_0 : S21x256.Transposes [1, 0] S256x21
  scatter_S1024x256_S262144x1_S262144x256_1_0_0_1_wf : ScatterDims.WF S1024x256 S262144x1 S262144x256 [1] [0] [0] 1
  scatter_S1024_S262144x1_S262144_n_0_0_1_wf : ScatterDims.WF S1024 S262144x1 S262144 [] [0] [0] 1
  dot_S1024x256_S256x21_S1024x21_1_0_0_1_n_n_wf : DotDims.WF S1024x256 S256x21 S1024x21 [1] [0] [0] [1] [] []

variable [Facts₀]

def scatter_S1024x256_S262144x1_S262144x256_1_0_0_1 : ScatterDims S1024x256 S262144x1 S262144x256 where
  updateWindowDims := [1]
  insertedWindowDims := [0]
  scatterDimsToOperandDims := [0]
  indexVectorDim := 1
  wf := scatter_S1024x256_S262144x1_S262144x256_1_0_0_1_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def dot_S1024x256_S256x21_S1024x21_1_0_0_1_n_n : DotDims S1024x256 S256x21 S1024x21 where
  lhsContracting := [1]
  rhsContracting := [0]
  lhsNonContracting := [0]
  rhsNonContracting := [1]
  lhsBatch := []
  rhsBatch := []
  wf := dot_S1024x256_S256x21_S1024x21_1_0_0_1_n_n_wf

class Facts : Prop extends Facts₀ where

variable [Facts]
-- ==== Proof.FiniteInputs.lean ====
import proofs.«419641_j70119636074681_3_alg».proof.Pre_finite_inputs
import proofs.«419641_j70119636074681_3_alg».proof.Proof.Gen.Pre_finite_inputs
import Idealize.ShloMosaic.PureOps.Ideal
import Idealize.ShloMosaic.PureOps.Ideal.Laws
import Idealize.ShloMosaic.Lib.ValueIdx
import Idealize.ShloMosaic.Lib.Affine
import Idealize.ShloMosaic.Lib.ReduceAll

namespace Cert.FiniteInputs

open Idealize.ShloMosaic

/-- An extended real whose absolute value `max x (-x)` lies below `+∞` is a real number:
    at either infinity the maximum is `+∞` itself. -/
theorem real_of_abs_lt_top (x : EReal) (h : max x (-x) < ⊤) : ∃ r : ℝ, x = (r : EReal) := by
  induction x using EReal.rec with
  | bot => simp at h
  | coe r => exact ⟨r, rfl⟩
  | top => simp at h

/-- The element test `|x| < +∞`, the bound being the word `0x7F800000`, read back. -/
theorem real_of_cmp_abs_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  refine real_of_abs_lt_top x ?_
  by_contra hn
  simp [Ideal.cmp, hn] at h

/-- The rank-zero shape has one index. -/
instance : Subsingleton Cert.Pre_finite_inputs.S_.Idx := ⟨fun a b => funext fun d => d.elim0⟩

/-- Under the precondition every entry of the two float inputs is a real number: the
    predicate is the conjunction of two reductions by `and` over all axes, each of the
    elementwise test `|x| < +∞`. -/
theorem real_of_pre (x0 : FVec Ideal Cert.Pre_finite_inputs.S1x512x512x256 .f32)
    (x1 : IVec Cert.Pre_finite_inputs.S512x512 32)
    (x2 : FVec Ideal Cert.Pre_finite_inputs.S21x256 .f32) :
    Cert.Pre_finite_inputs.fn (F := Ideal) x0 x1 x2 = (fun _ => 1#1) →
      (∀ i, ∃ r : ℝ, x0 i = (r : EReal)) ∧ (∀ i, ∃ r : ℝ, x2 i = (r : EReal)) := by
  intro h
  have h0 := congrFun h ValueIdx.ix0
  dsimp only [Cert.Pre_finite_inputs.fn] at h0
  obtain ⟨ha, hb⟩ := IntOp.andi_eq_one.1 h0
  refine ⟨fun i => ?_, fun i => ?_⟩
  · exact real_of_cmp_abs_inf (x0 i) (Host.reduce_andi_all _ _ _ _ _ ha i)
  · exact real_of_cmp_abs_inf (x2 i) (Host.reduce_andi_all _ _ _ _ _ hb i)

end Cert.FiniteInputs
-- ==== Proof.Pieces.lean ====
/-
  What one grid point leaves behind, as values. The body adds one tile's contribution to the running block it
  carries between points: at a half's first point the block is first reset to zeros, so the point leaves
  (zeros + contribution); at every other point it leaves (carried + contribution); at a half's last point the
  output block is, besides, the carried block after that addition, viewed with a leading axis of extent one.
-/
import proofs.«419641_j70119636074681_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A half's first point: the carried block is reset, then the tile's contribution is added. -/
theorem scratch_first (c : Dev nD) (i : grid0.Coords) (arg2 : Memref sig .tc .vmem S2048x256 .f32) (harg2 : arg2.IsWhole) (arg3 : Memref sig .tc .vmem S1x2048 .i32) (harg3 : arg3.IsWhole) (arg4 : Memref sig .tc .vmem S21x256 .bf16) (harg4 : arg4.IsWhole) (arg5 : Memref sig .tc .vmem S1x22x1024 .f32) (harg5 : arg5.IsWhole) (arg6 : Memref sig .tc .vmem S22x1024 .f32) (harg6 : arg6.IsWhole) (hc0 : cond0_0 i) (hc1 : ¬cond0_1 i)
    (x0 : Vec F S2048x256 .f32) (x1 : Vec F S1x2048 .i32) (x2 : Vec F S21x256 .bf16) :
    sout0_A_0 c i arg2 harg2 arg3 harg3 arg4 harg4 arg5 harg5 arg6 harg6 hc0 hc1 x0 x1 x2 = k0_pay2 x0 x2 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S22x1024) hz2]
  simp only [View.readAt_eq_ld, harg2.read_unread, harg3.read_unread, harg4.read_unread, harg6.read_unread,
    View.ld_unit_zero (S := S2048x256) hz2, View.ld_unit_zero (S := S21x256) hz2, View.ld_unit_zero (S := S1x2048) hz2,
    View.ld_unit_zero (S := S22x1024) hz2, View.readCov_unit_zero (S := S22x1024) _ hz2]

/-- A middle point: the tile's contribution is added to what the point before left. -/
theorem scratch_middle (c : Dev nD) (i : grid0.Coords) (arg2 : Memref sig .tc .vmem S2048x256 .f32) (harg2 : arg2.IsWhole) (arg3 : Memref sig .tc .vmem S1x2048 .i32) (harg3 : arg3.IsWhole) (arg4 : Memref sig .tc .vmem S21x256 .bf16) (harg4 : arg4.IsWhole) (arg5 : Memref sig .tc .vmem S1x22x1024 .f32) (harg5 : arg5.IsWhole) (arg6 : Memref sig .tc .vmem S22x1024 .f32) (harg6 : arg6.IsWhole) (hc0 : ¬cond0_0 i) (hc1 : ¬cond0_1 i)
    (x0 : Vec F S2048x256 .f32) (x1 : Vec F S1x2048 .i32) (x2 : Vec F S21x256 .bf16) (xs0 : Vec F S22x1024 .f32) :
    sout0_B_0 c i arg2 harg2 arg3 harg3 arg4 harg4 arg5 harg5 arg6 harg6 hc0 hc1 x0 x1 x2 xs0 = k0_pay2 x0 x2 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S2048x256) hz2, View.ld_unit_zero (S := S21x256) hz2, View.ld_unit_zero (S := S1x2048) hz2,
    View.ld_unit_zero (S := S22x1024) hz2, View.readCov_unit_zero (S := S22x1024) _ hz2]

/-- A half's last point, the carried block: as at a middle point. -/
theorem scratch_last (c : Dev nD) (i : grid0.Coords) (arg2 : Memref sig .tc .vmem S2048x256 .f32) (harg2 : arg2.IsWhole) (arg3 : Memref sig .tc .vmem S1x2048 .i32) (harg3 : arg3.IsWhole) (arg4 : Memref sig .tc .vmem S21x256 .bf16) (harg4 : arg4.IsWhole) (arg5 : Memref sig .tc .vmem S1x22x1024 .f32) (harg5 : arg5.IsWhole) (arg6 : Memref sig .tc .vmem S22x1024 .f32) (harg6 : arg6.IsWhole) (hc0 : ¬cond0_0 i) (hc1 : cond0_1 i)
    (x0 : Vec F S2048x256 .f32) (x1 : Vec F S1x2048 .i32) (x2 : Vec F S21x256 .bf16) (xs0 : Vec F S22x1024 .f32) :
    sout0_C_0 c i arg2 harg2 arg3 harg3 arg4 harg4 arg5 harg5 arg6 harg6 hc0 hc1 x0 x1 x2 xs0 = k0_pay2 x0 x2 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S2048x256) hz2, View.ld_unit_zero (S := S21x256) hz2, View.ld_unit_zero (S := S1x2048) hz2,
    View.ld_unit_zero (S := S22x1024) hz2, View.readCov_unit_zero (S := S22x1024) _ hz2]

/-- A half's last point, the output block: the carried block after the addition, with a leading unit axis. -/
theorem out_last (c : Dev nD) (i : grid0.Coords) (arg2 : Memref sig .tc .vmem S2048x256 .f32) (harg2 : arg2.IsWhole) (arg3 : Memref sig .tc .vmem S1x2048 .i32) (harg3 : arg3.IsWhole) (arg4 : Memref sig .tc .vmem S21x256 .bf16) (harg4 : arg4.IsWhole) (arg5 : Memref sig .tc .vmem S1x22x1024 .f32) (harg5 : arg5.IsWhole) (arg6 : Memref sig .tc .vmem S22x1024 .f32) (harg6 : arg6.IsWhole) (hc0 : ¬cond0_0 i) (hc1 : cond0_1 i)
    (x0 : Vec F S2048x256 .f32) (x1 : Vec F S1x2048 .i32) (x2 : Vec F S21x256 .bf16) (xs0 : Vec F S22x1024 .f32) :
    out0_C_3 c i arg2 harg2 arg3 harg3 arg4 harg4 arg5 harg5 arg6 harg6 hc0 hc1 x0 x1 x2 xs0 = k0_pay3 (k0_pay2 x0 x2 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S2048x256) hz2, View.ld_unit_zero (S := S21x256) hz2, View.ld_unit_zero (S := S1x2048) hz2,
    View.ld_unit_zero (S := S22x1024) hz2, View.readCov_unit_zero (S := S22x1024) _ hz2]

end Cert.KernelIdeal.Pieces

end
-- ==== Proof.LibDotNT.lean ====
/-
  The product of an N × K matrix by the TRANSPOSE of an M × K matrix, read at an index.

  A product whose dimension numbers contract the LAST axis of both operands (axis 1 of the left with axis 1 of the
  right) and carry no batch axis has, at (n, j), the value Σ_κ l (n, κ) · r (j, κ). Stated for any dimension-numbers
  record whose lists have those values, generically in the sizes and the operands' formats, at the ideal values (a
  float is an extended real): for the accumulating block product, and for the bare sum over the record's contraction
  index that it reduces to.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

variable {N K M : Nat}

/-- The record with the lists of a product contracting both operands' last axis. -/
abbrev lastAxes (wf : DotDims.WF ⟨2, ![N, K]⟩ ⟨2, ![M, K]⟩ ⟨2, ![N, M]⟩ [1] [1] [0] [0] [] []) :
    DotDims ⟨2, ![N, K]⟩ ⟨2, ![M, K]⟩ ⟨2, ![N, M]⟩ := ⟨[1], [1], [0], [0], [], [], wf⟩

/-- A record whose lists are those is that record. -/
theorem dot_eq_lastAxes (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = []) :
    ∃ wf, d = lastAxes wf := by
  cases d
  simp only at hlc hrc hln hrn hlb hrb
  subst hlc hrc hln hrn hlb hrb
  exact ⟨_, rfl⟩

section
variable (wf : DotDims.WF ⟨2, ![N, K]⟩ ⟨2, ![M, K]⟩ ⟨2, ![N, M]⟩ [1] [1] [0] [0] [] [])

/-- The left operand's row is the result's row. -/
theorem lhs_axis0 (i : (⟨2, ![N, M]⟩ : Shape).Idx) (q : (lastAxes wf).contr.Idx) :
    ((lastAxes wf).lhsIdx i q 0).val = (i 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- The left operand's column is the contraction's coordinate. -/
theorem lhs_axis1 (i : (⟨2, ![N, M]⟩ : Shape).Idx) (q : (lastAxes wf).contr.Idx) :
    ((lastAxes wf).lhsIdx i q 1).val = (q ⟨0, Nat.one_pos⟩).val :=
  (lastAxes wf).lhsIdx_val_of_single rfl i q

/-- The right operand's row is the result's column. -/
theorem rhs_axis0 (i : (⟨2, ![N, M]⟩ : Shape).Idx) (q : (lastAxes wf).contr.Idx) :
    ((lastAxes wf).rhsIdx i q 0).val = (i 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The right operand's column is the contraction's coordinate. -/
theorem rhs_axis1 (i : (⟨2, ![N, M]⟩ : Shape).Idx) (q : (lastAxes wf).contr.Idx) :
    ((lastAxes wf).rhsIdx i q 1).val = (q ⟨0, Nat.one_pos⟩).val :=
  (lastAxes wf).rhsIdx_val_of_single rfl i q

/-- THE CONTRACTION'S SUM AT (n, j) for the literal record: Σ_κ l (n, κ) · r (j, κ). -/
theorem contr_sum_lastAxes {φ₁ φ₂ : FTy} (l : FVec Ideal ⟨2, ![N, K]⟩ φ₁) (r : FVec Ideal ⟨2, ![M, K]⟩ φ₂)
    (n : Fin N) (j : Fin M) :
    ∑ k : (lastAxes wf).contr.Idx, l ((lastAxes wf).lhsIdx (ix2 n j) k) * r ((lastAxes wf).rhsIdx (ix2 n j) k)
      = ∑ κ : Fin K, l (ix2 n κ) * r (ix2 j κ) := by
  rw [← Equiv.sum_comp (contrEquiv1 (lastAxes wf) K rfl rfl).symm]
  refine Finset.sum_congr rfl fun κ _ => ?_
  have hk := contrEquiv1_symm_val (lastAxes wf) K rfl rfl κ
  have el : (lastAxes wf).lhsIdx (ix2 n j) ((contrEquiv1 (lastAxes wf) K rfl rfl).symm κ) = ix2 n κ :=
    funext fun a => Fin.ext (by
      match a with
      | ⟨0, _⟩ => exact lhs_axis0 wf _ _
      | ⟨1, _⟩ => exact (lhs_axis1 wf _ _).trans hk)
  have er : (lastAxes wf).rhsIdx (ix2 n j) ((contrEquiv1 (lastAxes wf) K rfl rfl).symm κ) = ix2 j κ :=
    funext fun a => Fin.ext (by
      match a with
      | ⟨0, _⟩ => exact rhs_axis0 wf _ _
      | ⟨1, _⟩ => exact (rhs_axis1 wf _ _).trans hk)
  rw [el, er]

end

/-- THE ACCUMULATING BLOCK PRODUCT READ AT (n, j): the accumulator's entry plus Σ_κ l (n, κ) · r (j, κ). -/
theorem matmul_lastAxes_apply {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![N, K]⟩ φ₁) (r : FVec Ideal ⟨2, ![M, K]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 j κ) := by
  obtain ⟨wf, rfl⟩ := dot_eq_lastAxes d hlc hrc hln hrn hlb hrb
  rw [Ideal.matmul_apply]
  exact congrArg (acc (ix2 n j) + ·) (contr_sum_lastAxes wf l r n j)

end Cert.LibDotNT

end
-- ==== Proof.TileValue.lean ====
/-
  One tile's contribution, entry by entry, at the ideal values.

  A tile is 2048 consecutive pixels. For class c < 21, pixel i scores Σ_f w(c, f) · x(i, f); a 22nd row of ones is
  stacked under the 21 score rows so that the same product also counts pixels. Pixel i belongs to superpixel s when
  its label word is the word of s; membership is the 0/1 number the comparison converts to. The body adds to the
  carried block, at (row, s), the sum over the tile's pixels of (stacked row at i) · (membership of i in s).
-/
import proofs.«419641_j70119636074681_3_alg».proof.Proof.Gen.KernelIdeal.Skeleton
import proofs.«419641_j70119636074681_3_alg».proof.Proof.LibDotNT
import Idealize.ShloMosaic.Lib.Pipeline.Value
import Idealize.ShloMosaic.Lib.ValueIdx
import Idealize.ShloMosaic.Lib.IdealHost
import Idealize.ShloMosaic.Lib.StableHlo.Predicate
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-- Membership of the tile's pixel i in superpixel s, as the number 0 or 1. -/
def hot (ids : IVec S1x2048 32) (s : Fin 1024) (i : Fin 2048) : EReal :=
  if ids (ix2 0 i) = BitVec.ofNat 32 s.val then 1 else 0

/-- The stacked rows at the tile's pixel i: the 21 class scores, then a one. -/
def aug (w : FVec Ideal S21x256 .bf16) (x : FVec Ideal S2048x256 .f32) (ca : Fin 22) (i : Fin 2048) : EReal :=
  if h : ca.val < 21 then ∑ f : Fin 256, w (ix2 ⟨ca.val, h⟩ f) * x (ix2 i f) else 1

/-- A one-bit word that is not one is zero. -/
theorem bit_eq_zero_of_ne_one : ∀ b : BitVec 1, b ≠ 1#1 → b = 0#1 := by decide

/-- The comparison of the row counter with the labels, converted to a float: the membership number. -/
theorem onehot_apply (ids : IVec S1x2048 32) (s : Fin 1024) (i : Fin 2048) :
    (truncf .bf16 (sitofp .f32 (extui 32 (cmpi .eq (iota .tc S1024x2048 32 [0] iota_S1024x2048_d0_w32)
      (broadcastTo S1024x2048 (shapeCast S1x2048 ids shapeCasts_S1x2048_S1x2048) broadcasts_S1x2048_S1024x2048))
      natLt_1_32)) bitsLt_bf16_f32 : FVec Ideal S1024x2048 .bf16) (ix2 s i) = hot ids s i := by
  rw [truncf_apply, sitofp_apply, extui_apply]
  show ((((IntOp.cmpi .eq (iota .tc S1024x2048 32 [0] iota_S1024x2048_d0_w32 (ix2 s i))
    (broadcastTo S1024x2048 (shapeCast S1x2048 ids shapeCasts_S1x2048_S1x2048) broadcasts_S1x2048_S1024x2048 (ix2 s i))).setWidth 32).toInt : ℝ) : EReal) = _
  rw [iota_single_apply, shapeCast_self,
    broadcastTo_apply ids broadcasts_S1x2048_S1024x2048 (ix2 s i) (ix2 0 i) (fun a => by
      match a with
      | ⟨0, _⟩ => rfl
      | ⟨1, _⟩ => rfl)]
  unfold hot
  show ((((IntOp.cmpi .eq (BitVec.ofNat 32 s.val) (ids (ix2 0 i))).setWidth 32).toInt : ℝ) : EReal) = _
  by_cases h : ids (ix2 0 i) = BitVec.ofNat 32 s.val
  · rw [if_pos h, StableHlo.Predicate.cmpi_eq_iff.mpr h.symm]
    norm_num
  · rw [if_neg h, bit_eq_zero_of_ne_one _ (fun e => h (StableHlo.Predicate.cmpi_eq_iff.mp e).symm)]
    norm_num

/-- The stacked rows: the class scores by the product contracting the feature axis, the ones row below them. -/
theorem aug_apply (w : FVec Ideal S21x256 .bf16) (x : FVec Ideal S2048x256 .f32) (ca : Fin 22) (i : Fin 2048) :
    (truncf .bf16 (concatenate S22x2048 0 [⟨S21x2048, matmul dot_S21x256_S2048x256_S21x2048_1_1_0_0_n_n none
        (shapeCast S21x256 w shapeCasts_S21x256_S21x256)
        (truncf .bf16 (shapeCast S2048x256 x shapeCasts_S2048x256_S2048x256) bitsLt_bf16_f32)
        (constant S21x2048 .f32 0x00000000#32)⟩,
      ⟨S1x2048, broadcast S1x2048 (Scalar.ofBits (F := Ideal) .f32 0x3F800000#32)⟩] concatenates_S21x2048_S1x2048_S22x2048_d0)
      bitsLt_bf16_f32 : FVec Ideal S22x2048 .bf16) (ix2 ca i) = aug w x ca i := by
  rw [truncf_apply]
  unfold aug
  by_cases h : ca.val < 21
  · rw [dif_pos h, concatenate_pair_apply_left (t := S22x2048) (s₁ := S21x2048) (s₂ := S1x2048) 0 _ _ _ (ix2 ca i) rfl (ix2 ⟨ca.val, h⟩ i) (fun b => by
      match b with
      | ⟨0, _⟩ => rfl
      | ⟨1, _⟩ => rfl)]
    simp only [matmul]
    rw [Cert.LibDotNT.matmul_lastAxes_apply _ rfl rfl rfl rfl rfl rfl, constant_apply, Ideal.ofBits_zero_f32, zero_add,
      shapeCast_self]
    refine Finset.sum_congr rfl fun f _ => ?_
    rw [truncf_apply, shapeCast_self]
  · have hca : ca.val = 21 := by have := ca.isLt; omega
    rw [dif_neg h, concatenate_pair_apply_right (t := S22x2048) (s₁ := S21x2048) (s₂ := S1x2048) 0 _ _ _ (ix2 ca i) rfl rfl (ix2 0 i) (fun b hb => by
      match b with
      | ⟨0, _⟩ => exact absurd rfl hb
      | ⟨1, _⟩ => rfl) (by show 0 + 21 = ca.val; omega)]
    rw [broadcast_apply]
    exact Ideal.ofBits_one_f32

/-- THE TILE'S CONTRIBUTION: what the body stores into the carried block, at (row, s), is the carried entry plus the sum
    over the tile's pixels of the stacked row at the pixel times the pixel's membership in s. -/
theorem pay2_apply (x : FVec Ideal S2048x256 .f32) (w : FVec Ideal S21x256 .bf16) (ids : IVec S1x2048 32)
    (acc : FVec Ideal S22x1024 .f32) (ca : Fin 22) (s : Fin 1024) :
    k0_pay2 (F := Ideal) x w ids acc (ix2 ca s) = acc (ix2 ca s) + ∑ i : Fin 2048, aug w x ca i * hot ids s i := by
  unfold k0_pay2
  dsimp only
  simp only [matmul]
  rw [shapeCast_self, addf_apply, Cert.LibDotNT.matmul_lastAxes_apply _ rfl rfl rfl rfl rfl rfl, constant_apply,
    Ideal.ofBits_zero_f32, zero_add]
  refine congrArg (acc (ix2 ca s) + ·) (Finset.sum_congr rfl fun i _ => ?_)
  rw [aug_apply, onehot_apply]

/-- The reset block is zero everywhere. -/
theorem pay1_apply (j : S22x1024.Idx) : k0_pay1 (F := Ideal) j = 0 := by
  unfold k0_pay1
  rw [shapeCast_self, broadcast_apply]
  exact Ideal.ofBits_zero_f32

end Cert.KernelIdeal.Tile

end
-- ==== Proof.Blocks.lean ====
/-
  The blocks the grid points read, as entries of the arrays the region finds.

  The 128 grid points walk the 262144 pixels in tiles of 2048: point t reads feature rows 2048 t … 2048 t + 2047 and the
  labels of the same pixels; the class weights are one block, read whole at every point. The output array has one
  block per half (64 points): point t writes into block t / 64.
-/
import proofs.«419641_j70119636074681_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The flattened features, the flattened labels and the class weights as the region finds them. -/
abbrev featArr (c : Dev nD) : FVec F S262144x256 .f32 := V m c main_v0
abbrev idArr (c : Dev nD) : IVec S1x262144 32 := V m c main_v1
abbrev wArr (c : Dev nD) : FVec F S21x256 .bf16 := V m c main_v2

/-- The blocks grid point t reads. -/
abbrev featBlk (c : Dev nD) (t : Fin cfg0.N) : FVec F S2048x256 .f32 := iblk m c 0 t
abbrev idBlk (c : Dev nD) (t : Fin cfg0.N) : IVec S1x2048 32 := iblk m c 1 t
abbrev wBlk (c : Dev nD) (t : Fin cfg0.N) : FVec F S21x256 .bf16 := iblk m c 2 t

/-- The block indices over the grid: the tile number for the pixels' two windows, block (0, 0) for the weights, the
    half for the output. -/
theorem idx_facts : ∀ t : Fin cfg0.N,
    win0_0.index t 0 = t.val ∧ win0_0.index t 1 = 0 ∧ win0_1.index t 0 = 0 ∧ win0_1.index t 1 = t.val
    ∧ win0_2.index t 0 = 0 ∧ win0_2.index t 1 = 0
    ∧ win0_3.index t 0 = t.val / 64 ∧ win0_3.index t 1 = 0 ∧ win0_3.index t 2 = 0 :=
  (by decide +kernel : ∀ t : Fin grid0.N,
    win0_0.index t 0 = t.val ∧ win0_0.index t 1 = 0 ∧ win0_1.index t 0 = 0 ∧ win0_1.index t 1 = t.val
    ∧ win0_2.index t 0 = 0 ∧ win0_2.index t 1 = 0
    ∧ win0_3.index t 0 = t.val / 64 ∧ win0_3.index t 1 = 0 ∧ win0_3.index t 2 = 0)

/-- Pixel i of tile t is feature row 2048 t + i. -/
theorem featBlk_apply (c : Dev nD) (t : Fin cfg0.N) (i : Fin 2048) (f : Fin 256) (h : t.val * 2048 + i.val < 262144) :
    featBlk m c t (ix2 i f) = featArr m c (ix2 ⟨t.val * 2048 + i.val, h⟩ f) := by
  show iblk m c 0 t (ix2 i f) = _
  unfold iblk
  rw [View.read_apply]
  show V m c main_v0 _ = V m c main_v0 _
  congr 1
  funext a
  apply Fin.ext
  match a with
  | ⟨0, _⟩ => show win0_0.index t 0 * 2048 + 1 * i.val = t.val * 2048 + i.val; rw [(idx_facts t).1]; omega
  | ⟨1, _⟩ => show win0_0.index t 1 * 256 + 1 * f.val = f.val; rw [(idx_facts t).2.1]; omega

/-- Pixel i of tile t has label 2048 t + i. -/
theorem idBlk_apply (c : Dev nD) (t : Fin cfg0.N) (i : Fin 2048) (h : t.val * 2048 + i.val < 262144) :
    idBlk m c t (ix2 0 i) = idArr m c (ix2 0 ⟨t.val * 2048 + i.val, h⟩) := by
  show iblk m c 1 t (ix2 0 i) = _
  unfold iblk
  rw [View.read_apply]
  show V m c main_v1 _ = V m c main_v1 _
  congr 1
  funext a
  apply Fin.ext
  match a with
  | ⟨0, _⟩ => show win0_1.index t 0 * 1 + 1 * 0 = 0; rw [(idx_facts t).2.2.1]
  | ⟨1, _⟩ => show win0_1.index t 1 * 2048 + 1 * i.val = t.val * 2048 + i.val; rw [(idx_facts t).2.2.2.1]; omega

/-- The weights' block is the weights. -/
theorem wBlk_apply (c : Dev nD) (t : Fin cfg0.N) (k : Fin 21) (f : Fin 256) :
    wBlk m c t (ix2 k f) = wArr m c (ix2 k f) := by
  show iblk m c 2 t (ix2 k f) = _
  unfold iblk
  rw [View.read_apply]
  show V m c main_v2 _ = V m c main_v2 _
  congr 1
  funext a
  apply Fin.ext
  match a with
  | ⟨0, _⟩ => show win0_2.index t 0 * 21 + 1 * k.val = k.val; rw [(idx_facts t).2.2.2.2.1]; omega
  | ⟨1, _⟩ => show win0_2.index t 1 * 256 + 1 * f.val = f.val; rw [(idx_facts t).2.2.2.2.2.1]; omega

end Cert.KernelIdeal.Blocks

end
-- ==== Proof.Accum.lean ====
/-
  The running block, point by point, is the sum of the tiles seen so far in the current half.

  Within a half (64 consecutive grid points) the carried block after point n holds, at (row, s), the sum of the
  contributions of the half's tiles up to n: the half's first point starts from zeros, every later point adds its
  tile to what the point before left. At the half's last point the output block is that sum over all 64 tiles.
-/
import proofs.«419641_j70119636074681_3_alg».proof.Proof.Pieces
import proofs.«419641_j70119636074681_3_alg».proof.Proof.TileValue
import proofs.«419641_j70119636074681_3_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Tile Cert.KernelIdeal.Blocks

section Steps
variable {F : FTy → Type} [FloatOps F]
variable (m : (ℓ : Loc nD τ sig) → Buf (Elt F) ℓ)

/-- After a half's first point the carried block is the body's sum over the reset block. -/
theorem carried_first (c : Dev nD) (t : Fin cfg0.N) (h0 : t.val % 64 = 0) :
    (outsAt0 m c t.val t.isLt).2 = k0_pay2 (featBlk m c t) (wBlk m c t) (idBlk m c t) (k0_pay1 (F := F)) := by
  have h1 : ¬t.val % 64 = 63 := by omega
  rw [outsAt0_A m c t h0 h1]
  dsimp only
  exact scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After any other point it is the body's sum over what the point before left. -/
theorem carried_next (c : Dev nD) (t : Fin cfg0.N) (h0 : ¬t.val % 64 = 0) :
    (outsAt0 m c t.val t.isLt).2
      = k0_pay2 (featBlk m c t) (wBlk m c t) (idBlk m c t)
          (outsAt0 m c (t.val - 1) (Nat.lt_of_le_of_lt (Nat.sub_le _ _) t.isLt)).2 := by
  by_cases h1 : t.val % 64 = 63
  · rw [outsAt0_C m c t h0 h1]
    dsimp only
    exact scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    dsimp only
    exact scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- At a half's last point the output block is the carried block the point leaves, with a leading unit axis. -/
theorem out_at_last (c : Dev nD) (t : Fin cfg0.N) (h1 : t.val % 64 = 63) :
    (outsAt0 m c t.val t.isLt).1 = k0_pay3 (outsAt0 m c t.val t.isLt).2 := by
  have h0 : ¬t.val % 64 = 0 := by omega
  rw [outsAt0_C m c t h0 h1]
  dsimp only
  rw [scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2]
  exact out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2

end Steps

section AtIdeal
variable (m : (ℓ : Loc nD τ sig) → Buf (Elt Ideal) ℓ)

/-- Pixel number r as a row of the flattened arrays (a number past the last pixel wraps around; none is ever used). -/
def row (r : ℕ) : Fin 262144 := ⟨r % 262144, Nat.mod_lt _ (by decide)⟩

/-- The stacked rows at pixel r, over the whole arrays: the 21 class scores of the pixel, then a one. -/
def augAt (c : Dev nD) (ca : Fin 22) (r : ℕ) : EReal :=
  if h : ca.val < 21 then ∑ f : Fin 256, wArr m c (ix2 ⟨ca.val, h⟩ f) * featArr m c (ix2 (row r) f) else 1

/-- Membership of pixel r in superpixel s, as the number 0 or 1. -/
def hotAt (c : Dev nD) (s : Fin 1024) (r : ℕ) : EReal :=
  if idArr m c (ix2 0 (row r)) = BitVec.ofNat 32 s.val then 1 else 0

/-- Tile n's contribution at (row, s): the sum over its 2048 pixels. -/
def tile (c : Dev nD) (n : ℕ) (ca : Fin 22) (s : Fin 1024) : EReal :=
  ∑ i : Fin 2048, augAt m c ca (n * 2048 + i.val) * hotAt m c s (n * 2048 + i.val)

/-- The sum the body forms from grid point t's blocks is tile t's contribution. -/
theorem tile_eq (c : Dev nD) (t : Fin cfg0.N) (ca : Fin 22) (s : Fin 1024) :
    ∑ i : Fin 2048, aug (wBlk m c t) (featBlk m c t) ca i * hot (idBlk m c t) s i = tile m c t.val ca s := by
  have hN : t.val < 128 := lt_of_lt_of_eq t.isLt (show cfg0.N = 128 from N_0)
  unfold tile
  refine Finset.sum_congr rfl fun i _ => ?_
  have hi : t.val * 2048 + i.val < 262144 := by have := i.isLt; omega
  have hrow : row (t.val * 2048 + i.val) = ⟨t.val * 2048 + i.val, hi⟩ := Fin.ext (Nat.mod_eq_of_lt hi)
  unfold aug augAt hot hotAt
  rw [hrow, idBlk_apply m c t i hi]
  congr 1
  by_cases h : ca.val < 21
  · rw [dif_pos h, dif_pos h]
    refine Finset.sum_congr rfl fun f _ => ?_
    rw [wBlk_apply, featBlk_apply m c t i f hi]
  · rw [dif_neg h, dif_neg h]

/-- THE INVARIANT: after point n the carried block holds the sum of the current half's tiles up to n. -/
theorem carried_eq (c : Dev nD) : ∀ (n : ℕ) (hn : n < cfg0.N) (ca : Fin 22) (s : Fin 1024),
    (outsAt0 m c n hn).2 (ix2 ca s) = ∑ k ∈ Finset.range (n % 64 + 1), tile m c (n / 64 * 64 + k) ca s
  | 0, hn, ca, s => by
    have e : (outsAt0 m c 0 hn).2 = k0_pay2 (featBlk m c ⟨0, hn⟩) (wBlk m c ⟨0, hn⟩) (idBlk m c ⟨0, hn⟩) (k0_pay1 (F := Ideal)) :=
      carried_first m c ⟨0, hn⟩ rfl
    rw [e, pay2_apply, pay1_apply, zero_add, tile_eq]
    simp
  | n + 1, hn, ca, s => by
    have hN : n + 1 < 128 := lt_of_lt_of_eq hn (show cfg0.N = 128 from N_0)
    by_cases h0 : (n + 1) % 64 = 0
    · have e : (outsAt0 m c (n + 1) hn).2
          = k0_pay2 (featBlk m c ⟨n + 1, hn⟩) (wBlk m c ⟨n + 1, hn⟩) (idBlk m c ⟨n + 1, hn⟩) (k0_pay1 (F := Ideal)) :=
        carried_first m c ⟨n + 1, hn⟩ h0
      rw [e, pay2_apply, pay1_apply, zero_add, tile_eq, h0]
      have hq : (n + 1) / 64 * 64 = n + 1 := by omega
      simp [hq]
    · have e : (outsAt0 m c (n + 1) hn).2
          = k0_pay2 (featBlk m c ⟨n + 1, hn⟩) (wBlk m c ⟨n + 1, hn⟩) (idBlk m c ⟨n + 1, hn⟩)
              (outsAt0 m c n (Nat.lt_of_succ_lt hn)).2 :=
        carried_next m c ⟨n + 1, hn⟩ h0
      rw [e, pay2_apply, tile_eq, carried_eq c n (Nat.lt_of_succ_lt hn) ca s]
      have h1 : (n + 1) % 64 = n % 64 + 1 := by omega
      have h2 : (n + 1) / 64 = n / 64 := by omega
      rw [h1, h2, Finset.sum_range_succ _ (n % 64 + 1)]
      congr 2
      show n + 1 = n / 64 * 64 + (n % 64 + 1)
      omega

/-- The sum of half h's 64 tiles at (row, s). -/
def halfSum (c : Dev nD) (h : ℕ) (ca : Fin 22) (s : Fin 1024) : EReal :=
  ∑ k ∈ Finset.range 64, tile m c (h * 64 + k) ca s

/-- So at a half's last point the output block holds, at (0, row, s), the sum of the half's 64 tiles. -/
theorem out_block_eq (c : Dev nD) (t : Fin cfg0.N) (h1 : t.val % 64 = 63) (y : S1x22x1024.Idx) :
    (outsAt0 m c t.val t.isLt).1 y = halfSum m c (t.val / 64) (y 1) (y 2) := by
  rw [out_at_last m c t h1]
  unfold k0_pay3
  rw [shapeCast_addUnit_apply ![22, 1024] _ shapeCasts_S22x1024_S1x22x1024 y]
  have : (fun a : Fin 2 => y a.succ) = (ix2 (y 1 : Fin 22) (y 2 : Fin 1024) : S22x1024.Idx) := funext fun a => by
    match a with
    | ⟨0, _⟩ => rfl
    | ⟨1, _⟩ => rfl
  rw [this, carried_eq m c t.val t.isLt (y 1) (y 2), h1]
  rfl

end AtIdeal

end Cert.KernelIdeal.Accum

end
-- ==== Proof.OutArray.lean ====
/-
  The kernel's output array after the run: block h holds the sum of half h's 64 tiles.

  The output array has one [1, 22, 1024] block per half. It is written back twice, after each half's last point, and
  what is written is that half's running block. The two blocks fill the array.
-/
import proofs.«419641_j70119636074681_3_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.Blocks Cert.KernelIdeal.Accum

variable (m : (ℓ : Loc nD τ sig) → Buf (Elt Ideal) ℓ) (ρ : Dev nD → PrngReg)

/-- The output array: at (h, row, s) the sum of half h's tiles. -/
def outArr (c : Dev nD) : FVec Ideal S2x22x1024 .f32 := fun j => halfSum m c (j 0).val (j 1) (j 2)

/-- What a writing point writes back is its block of that array. -/
theorem flushed_eq (c : Dev nD) (t : Fin cfg0.N) (hf : (cfg0.win 3).flush t = true) :
    (dats m 0 c).flushed 3 t = ((cfg0.win 3).blk t).view.read (Elt Ideal) (outArr m c) := by
  have h1 : t.val % 64 = 63 := (flush0_3 t).mp hf
  show (cfg0.win 3).cut (grid0.coords t) ((dats m 0 c).after 3 t) = _
  rw [after0_3]
  funext y
  show (outsAt0 m c t.val t.isLt).1 y = outArr m c (((cfg0.win 3).blk t).view.emb y)
  rw [out_block_eq m c t h1 y]
  unfold outArr
  have hy0 : (y 0).val < 1 := (y 0).isLt
  have e0 : (((cfg0.win 3).blk t).view.emb y 0).val = t.val / 64 := by
    show win0_3.index t 0 * 1 + 1 * (y 0).val = _
    rw [(idx_facts t).2.2.2.2.2.2.1]; omega
  have e1 : ((cfg0.win 3).blk t).view.emb y 1 = y 1 := Fin.ext (by
    show win0_3.index t 1 * 22 + 1 * (y 1).val = (y 1).val
    rw [(idx_facts t).2.2.2.2.2.2.2.1]; omega)
  have e2 : ((cfg0.win 3).blk t).view.emb y 2 = y 2 := Fin.ext (by
    show win0_3.index t 2 * 1024 + 1 * (y 2).val = (y 2).val
    rw [(idx_facts t).2.2.2.2.2.2.2.2]; omega)
  rw [e0, e1, e2]

/-- Every entry of the array lies in the block its half's last point writes back. -/
theorem cover (i : S2x22x1024.Idx) :
    ∃ t : Fin cfg0.N, (cfg0.win 3).flush t = true ∧ i ∈ ((cfg0.win 3).blk t).view.set := by
  have hi0 : (i 0).val < 2 := (i 0).isLt
  have hi1 : (i 1).val < 22 := (i 1).isLt
  have hi2 : (i 2).val < 1024 := (i 2).isLt
  have hN : cfg0.N = 128 := N_0
  have hlt : (i 0).val * 64 + 63 < cfg0.N := by omega
  refine ⟨⟨(i 0).val * 64 + 63, hlt⟩, (flush0_3 _).mpr (by show ((i 0).val * 64 + 63) % 64 = 63; omega), ?_⟩
  show i ∈ ((View.whole main_v3).slice (win0_3.rect ⟨(i 0).val * 64 + 63, hlt⟩)).set
  rw [View.set_slice_whole, Rect.mem_set_unit]
  obtain ⟨-, -, -, -, -, -, f0, f1, f2⟩ := idx_facts ⟨(i 0).val * 64 + 63, hlt⟩
  have f0' : win0_3.index ⟨(i 0).val * 64 + 63, hlt⟩ 0 = (i 0).val := by rw [f0]; show ((i 0).val * 64 + 63) / 64 = _; omega
  intro a
  match a with
  | ⟨0, _⟩ =>
    show win0_3.index ⟨(i 0).val * 64 + 63, hlt⟩ 0 * 1 ≤ (i 0).val ∧ (i 0).val < win0_3.index ⟨(i 0).val * 64 + 63, hlt⟩ 0 * 1 + 1
    rw [f0']; omega
  | ⟨1, _⟩ =>
    show win0_3.index ⟨(i 0).val * 64 + 63, hlt⟩ 1 * 22 ≤ (i 1).val ∧ (i 1).val < win0_3.index ⟨(i 0).val * 64 + 63, hlt⟩ 1 * 22 + 22
    rw [f1]; omega
  | ⟨2, _⟩ =>
    show win0_3.index ⟨(i 0).val * 64 + 63, hlt⟩ 2 * 1024 ≤ (i 2).val ∧ (i 2).val < win0_3.index ⟨(i 0).val * 64 + 63, hlt⟩ 2 * 1024 + 1024
    rw [f2]; omega

/-- THE OUTPUT ARRAY after the run. -/
theorem final (c : Dev nD) : (dats m 0 c).arrAt 3 cfg0.N = outArr m c :=
  (dats m 0 c).arrAt_eq_of_cover 3 (outArr m c) (flushed_eq m c) cover

end Cert.KernelIdeal.OutArray

end
-- ==== Proof.TailValue.lean ====
/-
  The host operations that follow the kernel, as one function of the kernel's output array, read at an index.

  The kernel leaves a [2, 22, 1024] array: one [22, 1024] block per half of the pixels, whose rows 0..20 hold, for every
  superpixel `s`, the 21 class sums and whose row 21 holds the superpixel's pixel count. The host adds the two blocks,
  divides each of the 21 class rows, entry by entry, by the larger of the count row and one, and transposes the
  quotient to [1024, 21]. Read at `(s, c)`: the two halves' entries `(c, s)` added, divided by the larger of one and the
  two halves' entries `(21, s)` added.
-/
import proofs.«419641_j70119636074681_3_alg».proof.Proof.Gen.KernelIdeal
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.TailValue

open Cert.KernelIdeal Cert.KernelIdeal.Gen Idealize.ShloMosaic Idealize.ShloMosaic.ValueIdx

section Def
variable {F : FTy → Type} [FloatOps F]

/-- The host operations after the kernel, composed in the program's order over the kernel's output `o`. -/
def tailFn (o : FVec F S2x22x1024 .f32) : FVec F S1024x21 .f32 :=
  let v5 : FVec F S22x1024 .f32 := shapeCast S22x1024 (extractStridedSlice S1x22x1024 ![0, 0, 0] o slices_S2x22x1024_S1x22x1024_0_0_0) shapeCasts_S1x22x1024_S22x1024
  let v7 : FVec F S22x1024 .f32 := shapeCast S22x1024 (extractStridedSlice S1x22x1024 ![1, 0, 0] o slices_S2x22x1024_S1x22x1024_1_0_0) shapeCasts_S1x22x1024_S22x1024
  let v8 : FVec F S22x1024 .f32 := addf v5 v7
  let v9 : FVec F S21x1024 .f32 := extractStridedSlice S21x1024 ![0, 0] v8 slices_S22x1024_S21x1024_0_0
  let v10 : FVec F S1x1024 .f32 := extractStridedSlice S1x1024 ![21, 0] v8 slices_S22x1024_S1x1024_21_0
  let v12 : FVec F S1x1024 .f32 := maximumf v10 (broadcastInDim S1x1024 ![] bcast_S_S1x1024 (constant S_ .f32 0x3F800000#32))
  let v13 : FVec F S21x1024 .f32 := broadcastInDim S21x1024 ![0, 1] bcast_S1x1024_S21x1024_0_1 v12
  transpose S1024x21 [1, 0] (Host.divf v9 v13) transposes_S21x1024_S1024x21_1_0

end Def

section Read
variable {α : Type}

/-- The first half's block, viewed [22, 1024], at `(r, s)` is the output at `(0, r, s)`. -/
theorem half0_apply (o : S2x22x1024.Idx → α) (r : Fin 22) (s : Fin 1024) :
    shapeCast S22x1024 (extractStridedSlice S1x22x1024 ![0, 0, 0] o slices_S2x22x1024_S1x22x1024_0_0_0)
      shapeCasts_S1x22x1024_S22x1024 (ix2 r s) = o (ix3 0 r s) := by
  refine (shapeCast_dropUnit_apply ![22, 1024] _ shapeCasts_S1x22x1024_S22x1024 (ix2 r s)).trans ?_
  exact extractStridedSlice_apply ![0, 0, 0] o slices_S2x22x1024_S1x22x1024_0_0_0 _ (ix3 0 r s) (fun a => match a with
    | ⟨0, _⟩ => by show (0 : Nat) = 0 + 0; omega
    | ⟨1, _⟩ => by show r.val = 0 + r.val; omega
    | ⟨2, _⟩ => by show s.val = 0 + s.val; omega)

/-- The second half's block, viewed [22, 1024], at `(r, s)` is the output at `(1, r, s)`. -/
theorem half1_apply (o : S2x22x1024.Idx → α) (r : Fin 22) (s : Fin 1024) :
    shapeCast S22x1024 (extractStridedSlice S1x22x1024 ![1, 0, 0] o slices_S2x22x1024_S1x22x1024_1_0_0)
      shapeCasts_S1x22x1024_S22x1024 (ix2 r s) = o (ix3 1 r s) := by
  refine (shapeCast_dropUnit_apply ![22, 1024] _ shapeCasts_S1x22x1024_S22x1024 (ix2 r s)).trans ?_
  exact extractStridedSlice_apply ![1, 0, 0] o slices_S2x22x1024_S1x22x1024_1_0_0 _ (ix3 1 r s) (fun a => match a with
    | ⟨0, _⟩ => by show (1 : Nat) = 1 + 0; omega
    | ⟨1, _⟩ => by show r.val = 0 + r.val; omega
    | ⟨2, _⟩ => by show s.val = 0 + s.val; omega)

/-- The class rows of a [22, 1024] array at `(c, s)`: the array's row `c`. -/
theorem classRows_apply (v : S22x1024.Idx → α) (c : Fin 21) (s : Fin 1024) :
    extractStridedSlice S21x1024 ![0, 0] v slices_S22x1024_S21x1024_0_0 (ix2 c s)
      = v (ix2 (⟨c.val, Nat.lt_succ_of_lt c.isLt⟩ : Fin 22) s) :=
  extractStridedSlice_apply ![0, 0] v slices_S22x1024_S21x1024_0_0 (ix2 c s) (ix2 (⟨c.val, Nat.lt_succ_of_lt c.isLt⟩ : Fin 22) s)
    (fun a => match a with
    | ⟨0, _⟩ => by show c.val = 0 + c.val; omega
    | ⟨1, _⟩ => by show s.val = 0 + s.val; omega)

/-- The count row of a [22, 1024] array at `(0, s)`: the array's row 21. -/
theorem countRow_apply (v : S22x1024.Idx → α) (s : Fin 1024) :
    extractStridedSlice S1x1024 ![21, 0] v slices_S22x1024_S1x1024_21_0 (ix2 0 s) = v (ix2 (21 : Fin 22) s) :=
  extractStridedSlice_apply ![21, 0] v slices_S22x1024_S1x1024_21_0 (ix2 0 s) (ix2 (21 : Fin 22) s) (fun a => match a with
    | ⟨0, _⟩ => by show (21 : Nat) = 21 + 0; omega
    | ⟨1, _⟩ => by show s.val = 0 + s.val; omega)

/-- A [1, 1024] row spread over 21 rows, at `(c, s)`: the row at `(0, s)`. -/
theorem spread_apply (v : S1x1024.Idx → α) (c : Fin 21) (s : Fin 1024) :
    broadcastInDim S21x1024 ![0, 1] bcast_S1x1024_S21x1024_0_1 v (ix2 c s) = v (ix2 0 s) :=
  broadcastInDim_apply _ bcast_S1x1024_S21x1024_0_1 v (ix2 c s) (ix2 0 s) (fun a => match a with
    | ⟨0, _⟩ => by show (0 : Nat) = if (1 : Nat) = 1 then 0 else c.val; rw [if_pos rfl]
    | ⟨1, _⟩ => by show s.val = if (1024 : Nat) = 1 then 0 else s.val; rw [if_neg (by decide)])

/-- A scalar spread over a [1, 1024] row, at any index: the scalar. -/
theorem spreadScalar_apply (v : S_.Idx → α) (j : S1x1024.Idx) :
    broadcastInDim S1x1024 ![] bcast_S_S1x1024 v j = v ix0 :=
  broadcastInDim_apply _ bcast_S_S1x1024 v j ix0 (fun a => a.elim0)

/-- A [21, 1024] array transposed, at `(s, c)`: the array at `(c, s)`. -/
theorem transposed_apply (v : S21x1024.Idx → α) (s : Fin 1024) (c : Fin 21) :
    transpose S1024x21 [1, 0] v transposes_S21x1024_S1024x21_1_0 (ix2 s c) = v (ix2 c s) :=
  transpose_apply [1, 0] v transposes_S21x1024_S1024x21_1_0 (ix2 s c) (ix2 c s) (fun b => match b with
    | ⟨0, _⟩ => rfl
    | ⟨1, _⟩ => rfl)

end Read

/-- THE TAIL AT AN INDEX. At `(s, c)`: the two halves' entries `(c, s)` added, divided by the larger of one and the two
    halves' counts `(21, s)` added. -/
theorem tailFn_apply (o : FVec Ideal S2x22x1024 .f32) (s : Fin 1024) (c : Fin 21) :
    tailFn (F := Ideal) o (ix2 s c)
      = Ideal.div (o (ix3 0 (⟨c.val, Nat.lt_succ_of_lt c.isLt⟩ : Fin 22) s) + o (ix3 1 (⟨c.val, Nat.lt_succ_of_lt c.isLt⟩ : Fin 22) s))
          (max (o (ix3 0 (21 : Fin 22) s) + o (ix3 1 (21 : Fin 22) s)) 1) := by
  unfold tailFn
  simp only []
  rw [transposed_apply, hostDivf_apply, classRows_apply, spread_apply, maximumf_apply, countRow_apply,
    spreadScalar_apply, constant_apply, Ideal.ofBits_one_f32, addf_apply, addf_apply, half0_apply, half1_apply,
    half0_apply, half1_apply]

end Cert.KernelIdeal.TailValue
-- ==== Proof.KernelRun.lean ====
/-
  The kernel program's run, read: its result is the host's closing operations applied to the output array, which holds
  the two halves' tile sums; the three arguments end unchanged.
-/
import proofs.«419641_j70119636074681_3_alg».proof.Proof.OutArray
import proofs.«419641_j70119636074681_3_alg».proof.Proof.TailValue
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.KernelIdeal.Blocks Cert.KernelIdeal.Accum Cert.KernelIdeal.OutArray Cert.KernelIdeal.TailValue

variable (m : (ℓ : Loc nD τ sig) → Buf (Elt Ideal) ℓ) (ρ : Dev nD → PrngReg)

/-- The program's result: the closing host operations of the kernel's output array. -/
theorem result_eq (c : Dev nD) :
    Pipeline.afterTail₀ cfgs (dats m) 0 (V0 m) [hostOps1] c main_v15 = tailFn (outArr m c) := by
  unfold Pipeline.afterTail₀
  show StableHlo.after hostOps1 _ (Proc.devRef .tc main_v15) = _
  after_results
  rw [(Pipeline.withArrays_arr spec0 launch0.win.arr_inj c _ _ 3).trans (final m c)]
  rfl

/-- The run, read: the result at that value, the arguments unchanged. -/
theorem run : θ_run defs (onTc (τ := τ) (main (F := Ideal))) ⟨m, fun _ => 0, ρ⟩ fun r => ∀ c : Dev nD,
      r.2.mem ((c.tc : Thread nD τ).loc main_v15) = tailFn (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Result

end
-- ==== Proof.TileSum.lean ====
/-
  Re-indexing the sums of a walk over 262144 pixels taken as 2 halves of 64 tiles of 2048 pixels.

  A sum taken tile by tile — over the tile number `n` and then over the position `i` inside the tile, at the pixel
  `n * T + i` — is the sum over all `N * T` pixels at once: the pixels `[n * T, (n + 1) * T)` of tile `n` follow those of
  the tiles before it (`tiles`). A sum over two runs of `K` consecutive numbers, the second starting where the first
  ends, is the sum over the `2 * K` numbers (`halves`). Together (`walk`): the two halves' tile-by-tile sums make the sum
  over all 262144 = 2 * 64 * 2048 pixels. Last, a 32-bit word equals the word of a number below 1024 exactly when, read
  signed, it is that number (`label_word`): the signed reading is injective, and a number that small reads back as itself.
-/
import Mathlib.Algebra.BigOperators.Fin
import Mathlib.Algebra.BigOperators.Intervals

open scoped BigOperators

namespace Cert.TileSum

variable {M : Type*} [AddCommMonoid M]

/-- The same over ranges: `N` runs of `T` consecutive numbers, one after the other, are the first `N * T` numbers. -/
theorem tiles_range (T N : ℕ) (g : ℕ → M) :
    ∑ n ∈ Finset.range N, ∑ i ∈ Finset.range T, g (n * T + i) = ∑ r ∈ Finset.range (N * T), g r := by
  induction N with
  | zero => simp
  | succ N ih => rw [Finset.sum_range_succ, ih, Nat.succ_mul, Finset.sum_range_add]

/-- TILES. The sum tile by tile is the sum over all pixels. -/
theorem tiles (T N : ℕ) (g : ℕ → M) :
    ∑ n ∈ Finset.range N, ∑ i : Fin T, g (n * T + i.val) = ∑ r : Fin (N * T), g r.val := by
  rw [Fin.sum_univ_eq_sum_range (fun r => g r) (N * T), ← tiles_range]
  apply Finset.sum_congr rfl
  intro n _
  exact Fin.sum_univ_eq_sum_range (fun i => g (n * T + i)) T

/-- HALVES. Two runs of `K` consecutive numbers, the second starting at `K`, are the first `2 * K` numbers. -/
theorem halves (K : ℕ) (f : ℕ → M) :
    (∑ k ∈ Finset.range K, f (0 * K + k)) + (∑ k ∈ Finset.range K, f (1 * K + k)) = ∑ n ∈ Finset.range (2 * K), f n := by
  rw [two_mul, Finset.sum_range_add]
  simp only [Nat.zero_mul, Nat.zero_add, Nat.one_mul]

/-- THE WALK. Two halves of 64 tiles of 2048 pixels, summed tile by tile, are the 262144 pixels summed at once. -/
theorem walk (g : ℕ → M) :
    (∑ k ∈ Finset.range 64, ∑ i : Fin 2048, g ((0 * 64 + k) * 2048 + i.val))
      + (∑ k ∈ Finset.range 64, ∑ i : Fin 2048, g ((1 * 64 + k) * 2048 + i.val)) = ∑ r : Fin 262144, g r.val := by
  rw [halves 64 (fun n => ∑ i : Fin 2048, g (n * 2048 + i.val))]
  exact tiles 2048 (2 * 64) g

/-- THE LABEL WORD. A 32-bit word is the word of a number below 1024 exactly when, read signed, it is that number. -/
theorem label_word (v : BitVec 32) (s : Fin 1024) : v = BitVec.ofNat 32 s.val ↔ v.toInt = (s.val : Int) := by
  have hs : (BitVec.ofNat 32 s.val).toInt = (s.val : Int) := by
    have := s.isLt
    rw [BitVec.toInt_eq_toNat_cond, BitVec.toNat_ofNat]
    split <;> omega
  constructor
  · rintro rfl
    exact hs
  · intro h
    exact BitVec.eq_of_toInt_eq (h.trans hs.symm)

end Cert.TileSum
-- ==== Proof.KernelForm.lean ====
import proofs.«419641_j70119636074681_3_alg».proof.Proof.Accum
import proofs.«419641_j70119636074681_3_alg».proof.Proof.TileSum
import Idealize.ShloMosaic.PureOps.Ideal
import Idealize.ShloMosaic.Lib.ValueIdx

noncomputable section

open scoped BigOperators
open Idealize.ShloMosaic Idealize.ShloMosaic.TcCoe Idealize.SL.Sem Idealize.ShloMosaic.ValueIdx

namespace Cert.KernelIdeal.Form

open Cert.KernelIdeal Cert.KernelIdeal.Gen Cert.KernelIdeal.Blocks Cert.KernelIdeal.Accum

variable (m : (ℓ : Loc nD τ sig) → Buf (Elt Ideal) ℓ)

/-- The two halves' sums, each taken tile by tile, are one sum over all 262144 pixels. -/
theorem halves_sum (c : Dev nD) (ca : Fin 22) (s : Fin 1024) :
    halfSum m c 0 ca s + halfSum m c 1 ca s
      = ∑ r : Fin 262144, augAt m c ca r.val * hotAt m c s r.val := by
  unfold halfSum tile
  exact Cert.TileSum.walk (fun r => augAt m c ca r * hotAt m c s r)

/-- A pixel number below 262144 is its own row. -/
theorem row_val (r : Fin 262144) : row r.val = r := Fin.ext (Nat.mod_eq_of_lt r.isLt)

/-- Membership in superpixel `s`, with the label read as a signed number. -/
theorem hotAt_eq (c : Dev nD) (s : Fin 1024) (r : Fin 262144) :
    hotAt m c s r.val = if (idArr m c (ix2 0 r)).toInt = (s.val : Int) then (1 : EReal) else 0 := by
  unfold hotAt
  rw [row_val]
  exact if_congr (Cert.TileSum.label_word _ s) rfl rfl

/-- A class row of the stacked rows is the pixel's score for that class. -/
theorem augAt_class (c : Dev nD) (k : Fin 21) (r : Fin 262144) :
    augAt m c ⟨k.val, by omega⟩ r.val = ∑ f : Fin 256, wArr m c (ix2 k f) * featArr m c (ix2 r f) := by
  unfold augAt
  rw [dif_pos (show (⟨k.val, by omega⟩ : Fin 22).val < 21 from k.isLt), row_val]

/-- The last of the stacked rows is the constant one. -/
theorem augAt_one (c : Dev nD) (r : ℕ) : augAt m c 21 r = 1 := by
  unfold augAt
  rw [dif_neg (by decide)]

/-- The kernel's mean at (class `k`, superpixel `s`), the two halves' class-row sums over the two
    halves' counts kept at least one, as sums over all pixels: the masked sum of the pixels' scores
    over the masked count. -/
theorem kernel_form (c : Dev nD) (s : Fin 1024) (k : Fin 21) :
    Ideal.div (halfSum m c 0 ⟨k.val, by omega⟩ s + halfSum m c 1 ⟨k.val, by omega⟩ s)
        (max (halfSum m c 0 21 s + halfSum m c 1 21 s) 1)
      = Ideal.div
          (∑ r : Fin 262144, (∑ f : Fin 256, wArr m c (ix2 k f) * featArr m c (ix2 r f))
            * (if (idArr m c (ix2 0 r)).toInt = (s.val : Int) then (1 : EReal) else 0))
          (max (∑ r : Fin 262144,
            (1 : EReal) * (if (idArr m c (ix2 0 r)).toInt = (s.val : Int) then (1 : EReal) else 0)) 1) := by
  have hnum : (∑ r : Fin 262144, augAt m c ⟨k.val, by omega⟩ r.val * hotAt m c s r.val)
      = ∑ r : Fin 262144, (∑ f : Fin 256, wArr m c (ix2 k f) * featArr m c (ix2 r f))
          * (if (idArr m c (ix2 0 r)).toInt = (s.val : Int) then (1 : EReal) else 0) :=
    Finset.sum_congr rfl fun r _ => by rw [augAt_class, hotAt_eq]
  have hden : (∑ r : Fin 262144, augAt m c 21 r.val * hotAt m c s r.val)
      = ∑ r : Fin 262144,
          (1 : EReal) * (if (idArr m c (ix2 0 r)).toInt = (s.val : Int) then (1 : EReal) else 0) :=
    Finset.sum_congr rfl fun r _ => by rw [augAt_one, hotAt_eq]
  rw [halves_sum, halves_sum, hnum, hden]

end Cert.KernelIdeal.Form

end
-- ==== Proof.Entry.lean ====
/-
  The arrays the kernel is launched on, in terms of the program's arguments: the features and the labels flattened
  row-major, the class weights unchanged (a change of float format is the identity on the extended reals, and is left
  as the printed operation here).
-/
import proofs.«419641_j70119636074681_3_alg».proof.Proof.Blocks
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen Cert.KernelIdeal.Blocks

variable {F : FTy → Type} [FloatOps F]
variable (m : (ℓ : Loc nD τ sig) → Buf (Elt F) ℓ)

theorem featArr_eq (c : Dev nD) :
    featArr m c = shapeCast S262144x256 (m ((c : Thread nD τ).loc main_arg0)) shapeCasts_S1x512x512x256_S262144x256 := by
  show StableHlo.after hostOps0 (fun b => m (c, b)) (Proc.devRef .tc main_v0) = _
  after_results
  rfl

theorem idArr_eq (c : Dev nD) :
    idArr m c = shapeCast S1x262144 (m ((c : Thread nD τ).loc main_arg1)) shapeCasts_S512x512_S1x262144 := by
  show StableHlo.after hostOps0 (fun b => m (c, b)) (Proc.devRef .tc main_v1) = _
  after_results
  rfl

theorem wArr_eq (c : Dev nD) :
    wArr m c = truncf .bf16 (m ((c : Thread nD τ).loc main_arg2)) bitsLt_bf16_f32 := by
  show StableHlo.after hostOps0 (fun b => m (c, b)) (Proc.devRef .tc main_v2) = _
  after_results

end Cert.KernelIdeal.Entry

end
-- ==== Proof.LibScatterRows.lean ====
/-
  The host's accumulating scatter (the lowering of a segment sum) read at one index, at the ideal values.

  An update element `j` lands at the operand index whose coordinate on every axis is the signed start read off the
  scatter indices plus `j`'s window coordinate, and is dropped when that leaves the operand. For the two scatters of a
  segment sum — rows of a matrix added into the rows a list of row numbers names, and numbers added into the entries such
  a list names — the landing condition at operand index `(s, f)` (resp. `s`) is "the row number read signed is `s`, and
  the column is `f`". So the scatter at `(s, f)` is the operand there plus the sum over ALL update rows `r` of the
  update's entry `(r, f)` where row `r`'s number is `s`, else zero: a row number outside `[0, S)` equals no `s` and so
  contributes nowhere, which is how the dropped updates appear in the sum.
-/
import Idealize.ShloMosaic.PureOps.Ideal
import Idealize.ShloMosaic.PureOps.Contract
import Idealize.ShloMosaic.PureOps.Dims
import Idealize.ShloMosaic.Lib.ValueIdx
import Idealize.ShloMosaic.Lib.ValueIdxRank1

open scoped BigOperators
open Idealize.ShloMosaic Idealize.ShloMosaic.ValueIdx

namespace Cert.LibScatterRows

/-- An update lands at operand index `i` exactly when, on every axis, its signed start plus its window coordinate is
    `i`'s coordinate (in range then, since `i` is an index). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have := congrArg (fun g => ((g a).val : Int)) e
      simp only at this
      rw [← this]
      have := (h a).1
      omega
    · intro e
      funext a
      apply Fin.ext
      have := e a
      simp only
      omega
  · rename_i h
    constructor
    · intro e; exact absurd e (by simp)
    · intro e
      exfalso
      apply h
      intro a
      have := e a
      have := (i a).isLt
      omega

/-! Membership facts about the literal axis lists of the two scatters (closed, so decided). -/
theorem zero_not_mem_kept0 : (0 : Fin 2) ∉ (List.finRange 2).filter (fun a => a ∉ [(0 : Fin 2)]) := by decide
theorem one_mem_kept0 : (1 : Fin 2) ∈ (List.finRange 2).filter (fun a => a ∉ [(0 : Fin 2)]) := by decide
theorem one_not_mem0 : (1 : Fin 2) ∉ [(0 : Fin 2)] := by decide
theorem zero_mem0 : (0 : Fin 2) ∈ [(0 : Fin 2)] := by decide
theorem zero_not_mem_kept0' : (0 : Fin 1) ∉ (List.finRange 1).filter (fun a => a ∉ [(0 : Fin 1)]) := by decide
theorem zero_mem0' : (0 : Fin 1) ∈ [(0 : Fin 1)] := by decide

/-! ## Rows of a matrix added into the rows a list names -/

section Rows
variable {S C R : Nat}

/-- The dimension numbers of the row scatter, as a record of literal lists: the updates' axis 1 is the window, it goes
    to the operand's axis 1; the one start component is a row number of the operand. -/
abbrev rowsDims (wf : ScatterDims.WF ⟨2, ![S, C]⟩ ⟨2, ![R, 1]⟩ ⟨2, ![R, C]⟩ [1] [0] [0] 1) :
    ScatterDims ⟨2, ![S, C]⟩ ⟨2, ![R, 1]⟩ ⟨2, ![R, C]⟩ := ⟨[1], [0], [0], 1, wf⟩

variable (wf : ScatterDims.WF ⟨2, ![S, C]⟩ ⟨2, ![R, 1]⟩ ⟨2, ![R, C]⟩ [1] [0] [0] 1)

/-- No window coordinate on the row axis (it is inserted). -/
theorem rows_window0 (j : (⟨2, ![R, C]⟩ : Shape).Idx) : (rowsDims wf).window j 0 = 0 := by
  unfold ScatterDims.window
  rw [dif_neg]
  exact zero_not_mem_kept0

/-- The window coordinate on the column axis is the update's column. -/
theorem rows_window1 (j : (⟨2, ![R, C]⟩ : Shape).Idx) : (rowsDims wf).window j 1 = (j 1).val := by
  unfold ScatterDims.window
  rw [dif_pos]
  · rfl
  · exact one_mem_kept0

/-- No start on the column axis. -/
theorem rows_start1 (j : (⟨2, ![R, C]⟩ : Shape).Idx) (idx : IVec ⟨2, ![R, 1]⟩ 32) : (rowsDims wf).start j idx 1 = 0 := by
  unfold ScatterDims.start
  rw [dif_neg]
  exact one_not_mem0

/-- The start on the row axis is the row number the list gives the update's row, read signed. -/
theorem rows_start0 (j : (⟨2, ![R, C]⟩ : Shape).Idx) (idx : IVec ⟨2, ![R, 1]⟩ 32) :
    (rowsDims wf).start j idx 0 = (idx (ix2 (j 0) 0)).toInt := by
  unfold ScatterDims.start
  rw [dif_pos]
  · congr 2
    funext b
    match b with
    | ⟨0, _⟩ => rfl
    | ⟨1, _⟩ => rfl
  · exact zero_mem0

/-- Update element `j` lands at `(s, f)` exactly when its row's number is `s` and its column is `f`. -/
theorem rows_resultIdx?_iff (j : (⟨2, ![R, C]⟩ : Shape).Idx) (idx : IVec ⟨2, ![R, 1]⟩ 32) (s : Fin S) (f : Fin C) :
    (rowsDims wf).resultIdx? j idx = some (ix2 s f) ↔ ((idx (ix2 (j 0) 0)).toInt = (s.val : Int) ∧ j 1 = f) := by
  rw [resultIdx?_eq_some_iff]
  constructor
  · intro h
    have h0 := h 0
    have h1 := h 1
    rw [rows_start0, rows_window0] at h0
    rw [rows_start1, rows_window1] at h1
    refine ⟨?_, Fin.ext ?_⟩
    · have h0' : (idx (ix2 (j 0) 0)).toInt + ((0 : Nat) : Int) = (s.val : Int) := h0
      simpa using h0'
    · have h1' : (0 : Int) + (((j 1).val : Nat) : Int) = (f.val : Int) := h1
      omega
  · rintro ⟨h0, h1⟩ a
    match a with
    | ⟨0, _⟩ =>
      show (rowsDims wf).start j idx 0 + ((rowsDims wf).window j 0 : Int) = (s.val : Int)
      rw [rows_start0, rows_window0, h0]; simp
    | ⟨1, _⟩ =>
      show (rowsDims wf).start j idx 1 + ((rowsDims wf).window j 1 : Int) = (f.val : Int)
      rw [rows_start1, rows_window1, h1]; simp

/-- The row scatter at the literal record. -/
theorem scatterAdd_rows_lit (x : FVec Ideal ⟨2, ![S, C]⟩ .f32) (idx : IVec ⟨2, ![R, 1]⟩ 32) (upd : FVec Ideal ⟨2, ![R, C]⟩ .f32)
    (s : Fin S) (f : Fin C) :
    Host.scatterAdd (F := Ideal) (rowsDims wf) x idx upd (ix2 s f)
      = x (ix2 s f) + ∑ r : Fin R, if (idx (ix2 r 0)).toInt = (s.val : Int) then upd (ix2 r f) else 0 := by
  show Ideal.hostScatterAdd (rowsDims wf) x idx upd (ix2 s f) = _
  unfold Ideal.hostScatterAdd
  congr 1
  rw [Finset.sum_filter, sum_idx2]
  apply Finset.sum_congr rfl
  intro r _
  have key : ∀ b : Fin C, (if (rowsDims wf).resultIdx? (ix2 r b) idx = some (ix2 s f) then upd (ix2 r b) else 0)
      = if ((idx (ix2 r 0)).toInt = (s.val : Int) ∧ b = f) then upd (ix2 r b) else 0 := by
    intro b
    exact if_congr (rows_resultIdx?_iff wf (ix2 r b) idx s f) rfl rfl
  rw [Finset.sum_congr rfl (fun b _ => key b)]
  by_cases h : (idx (ix2 r 0)).toInt = (s.val : Int)
  · simp [h]
  · simp [h]

end Rows

/-- ROWS. The accumulating scatter of the rows of `upd` into the rows of `x` that `idx` names, read at `(s, f)`:
    the operand's entry plus the `(r, f)` entries of the update rows `r` whose row number, read signed, is `s`. -/
theorem scatterAdd_rows {S C R : Nat} (d : ScatterDims ⟨2, ![S, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : FVec Ideal ⟨2, ![S, C]⟩ .f32) (idx : IVec ⟨2, ![R, 1]⟩ 32) (upd : FVec Ideal ⟨2, ![R, C]⟩ .f32)
    (s : Fin S) (f : Fin C) :
    Host.scatterAdd (F := Ideal) d x idx upd (ix2 s f)
      = x (ix2 s f) + ∑ r : Fin R, if (idx (ix2 r 0)).toInt = (s.val : Int) then upd (ix2 r f) else 0 := by
  obtain ⟨uw, iw, sd, iv, wf⟩ := d
  dsimp only at huw hiw hsd hiv
  subst huw hiw hsd hiv
  exact scatterAdd_rows_lit wf x idx upd s f

/-! ## Numbers added into the entries a list names -/

section Vector
variable {S R : Nat}

/-- The dimension numbers of the vector scatter, as a record of literal lists: no window axis; the one start component
    is an entry number of the operand. -/
abbrev vecDims (wf : ScatterDims.WF ⟨1, ![S]⟩ ⟨2, ![R, 1]⟩ ⟨1, ![R]⟩ [] [0] [0] 1) :
    ScatterDims ⟨1, ![S]⟩ ⟨2, ![R, 1]⟩ ⟨1, ![R]⟩ := ⟨[], [0], [0], 1, wf⟩

variable (wf : ScatterDims.WF ⟨1, ![S]⟩ ⟨2, ![R, 1]⟩ ⟨1, ![R]⟩ [] [0] [0] 1)

/-- No window coordinate (the operand's one axis is inserted). -/
theorem vec_window0 (j : (⟨1, ![R]⟩ : Shape).Idx) : (vecDims wf).window j 0 = 0 := by
  unfold ScatterDims.window
  rw [dif_neg]
  exact zero_not_mem_kept0'

/-- The start is the entry number the list gives the update's position, read signed. -/
theorem vec_start0 (j : (⟨1, ![R]⟩ : Shape).Idx) (idx : IVec ⟨2, ![R, 1]⟩ 32) :
    (vecDims wf).start j idx 0 = (idx (ix2 (j 0) 0)).toInt := by
  unfold ScatterDims.start
  rw [dif_pos]
  · congr 2
    funext b
    match b with
    | ⟨0, _⟩ => rfl
    | ⟨1, _⟩ => rfl
  · exact zero_mem0'

/-- Update element `j` lands at `s` exactly when its number is `s`. -/
theorem vec_resultIdx?_iff (j : (⟨1, ![R]⟩ : Shape).Idx) (idx : IVec ⟨2, ![R, 1]⟩ 32) (s : Fin S) :
    (vecDims wf).resultIdx? j idx = some (ix1 s) ↔ (idx (ix2 (j 0) 0)).toInt = (s.val : Int) := by
  rw [resultIdx?_eq_some_iff]
  constructor
  · intro h
    have h0 := h 0
    rw [vec_start0, vec_window0] at h0
    have h0' : (idx (ix2 (j 0) 0)).toInt + ((0 : Nat) : Int) = (s.val : Int) := h0
    simpa using h0'
  · intro h0 a
    match a with
    | ⟨0, _⟩ =>
      show (vecDims wf).start j idx 0 + ((vecDims wf).window j 0 : Int) = (s.val : Int)
      rw [vec_start0, vec_window0, h0]; simp

/-- The vector scatter at the literal record. -/
theorem scatterAdd_vec_lit (x : FVec Ideal ⟨1, ![S]⟩ .f32) (idx : IVec ⟨2, ![R, 1]⟩ 32) (upd : FVec Ideal ⟨1, ![R]⟩ .f32)
    (s : Fin S) :
    Host.scatterAdd (F := Ideal) (vecDims wf) x idx upd (ix1 s)
      = x (ix1 s) + ∑ r : Fin R, if (idx (ix2 r 0)).toInt = (s.val : Int) then upd (ix1 r) else 0 := by
  show Ideal.hostScatterAdd (vecDims wf) x idx upd (ix1 s) = _
  unfold Ideal.hostScatterAdd
  congr 1
  rw [Finset.sum_filter, ← Equiv.sum_comp (idxEquiv1 (n := R)).symm]
  apply Finset.sum_congr rfl
  intro r _
  simp only [vec_resultIdx?_iff]
  rfl

end Vector

/-- VECTOR. The accumulating scatter of the numbers `upd` into the entries of `x` that `idx` names, read at `s`:
    the operand's entry plus the updates `r` whose entry number, read signed, is `s`. -/
theorem scatterAdd_vec {S R : Nat} (d : ScatterDims ⟨1, ![S]⟩ ⟨2, ![R, 1]⟩ ⟨1, ![R]⟩)
    (huw : d.updateWindowDims = []) (hiw : d.insertedWindowDims = [0]) (hsd : d.scatterDimsToOperandDims = [0])
    (hiv : d.indexVectorDim = 1)
    (x : FVec Ideal ⟨1, ![S]⟩ .f32) (idx : IVec ⟨2, ![R, 1]⟩ 32) (upd : FVec Ideal ⟨1, ![R]⟩ .f32) (s : Fin S) :
    Host.scatterAdd (F := Ideal) d x idx upd (ix1 s)
      = x (ix1 s) + ∑ r : Fin R, if (idx (ix2 r 0)).toInt = (s.val : Int) then upd (ix1 r) else 0 := by
  obtain ⟨uw, iw, sd, iv, wf⟩ := d
  dsimp only at huw hiw hsd hiv
  subst huw hiw hsd hiv
  exact scatterAdd_vec_lit wf x idx upd s

end Cert.LibScatterRows
-- ==== Proof.RefValue.lean ====
import proofs.«419641_j70119636074681_3_alg».proof.Proof.Gen.ReferenceIdeal.Read
import proofs.«419641_j70119636074681_3_alg».proof.Proof.LibScatterRows
import Idealize.ShloMosaic.Lib.IdealHost
import Idealize.ShloMosaic.Lib.ValueIdx
import Idealize.ShloMosaic.PureOps.Ideal
import Idealize.ShloMosaic.PureOps.Ideal.Laws

namespace Cert.RefValue

open Idealize.ShloMosaic Idealize.ShloMosaic.ValueIdx Cert.ReferenceIdeal
open Cert.ReferenceIdeal.Facts₀

/-- The pixel of flat row `r` of the 512 × 512 image: row `r / 512`, column `r % 512`. -/
abbrev pix (r : Fin 262144) : S512x512.Idx :=
  ix2 ⟨r.val / 512, by have := r.isLt; omega⟩ ⟨r.val % 512, by have := r.isLt; omega⟩

/-- The segment id the scatters read for flat row `r`: the label image at the pixel of `r`
    (the reshape to a vector, then the unit index-vector axis). -/
theorem segment_id (x1 : IVec S512x512 32) (r : Fin 262144) :
    Read.val_main_v1 (F := Ideal) x1 (ix1 r) = x1 (pix r) := by
  rw [Read.val_main_v1_apply]
  congr 1
  funext a
  match a with
  | ⟨0, _⟩ => rfl
  | ⟨1, _⟩ => rfl

/-- The per-segment pixel count: the scatter of ones into a zero vector. -/
theorem count_value (x1 : IVec S512x512 32) (s : Fin 1024) :
    Read.val_main_v8 (F := Ideal) x1 (ix1 s)
      = ∑ r : Fin 262144, if (x1 (pix r)).toInt = (s.val : Int) then (1 : EReal) else 0 := by
  unfold Read.val_main_v8
  rw [Cert.LibScatterRows.scatterAdd_vec _ rfl rfl rfl rfl, Read.val_main_v6_apply, Read.val_main_cst_1_apply,
    Ideal.ofBits_def, Ideal.ofBits_zero_f32, zero_add]
  refine Finset.sum_congr rfl fun r _ => ?_
  rw [Read.val_main_v7_apply, Read.val_main_v5_apply, Read.val_main_cst_0_apply, Ideal.ofBits_def,
    Ideal.ofBits_one_f32]
  have hi : Read.idx_main_v7 (ix2 r 0) = ix1 r := by
    funext a
    match a with
    | ⟨0, _⟩ => rfl
  rw [hi, segment_id]

/-- The per-segment feature sum: the scatter of the pixel rows into a zero matrix. -/
theorem sum_value (x0 : FVec Ideal S1x512x512x256 .f32) (x1 : IVec S512x512 32) (s : Fin 1024)
    (f : Fin 256) :
    Read.val_main_v4 (F := Ideal) x0 x1 (ix2 s f)
      = ∑ r : Fin 262144, if (x1 (pix r)).toInt = (s.val : Int)
          then (shapeCast S262144x256 x0 shapeCasts_S1x512x512x256_S262144x256) (ix2 r f) else 0 := by
  unfold Read.val_main_v4
  rw [Cert.LibScatterRows.scatterAdd_rows _ rfl rfl rfl rfl, Read.val_main_v2_apply, Read.val_main_cst_apply,
    Ideal.ofBits_def, Ideal.ofBits_zero_f32, zero_add]
  refine Finset.sum_congr rfl fun r _ => ?_
  rw [Read.val_main_v3_apply]
  have hi : Read.idx_main_v3 (ix2 r 0) = ix1 r := by
    funext a
    match a with
    | ⟨0, _⟩ => rfl
  rw [hi, segment_id]
  rfl

/-- The reference's result at segment `s` and class `c`: over the features `f`, the segment's
    feature sum divided by its pixel count kept at least one, times the class weight. -/
theorem ref_value (x0 : FVec Ideal S1x512x512x256 .f32) (x1 : IVec S512x512 32)
    (x2 : FVec Ideal S21x256 .f32) (s : Fin 1024) (c : Fin 21) :
    Read.val_main_v14 (F := Ideal) x0 x1 x2 (ix2 s c)
      = ∑ f : Fin 256, Ideal.div
          (∑ r : Fin 262144, if (x1 (pix r)).toInt = (s.val : Int)
            then (shapeCast S262144x256 x0 shapeCasts_S1x512x512x256_S262144x256) (ix2 r f) else 0)
          (max 1 (∑ r : Fin 262144, if (x1 (pix r)).toInt = (s.val : Int) then (1 : EReal) else 0))
          * x2 (ix2 c f) := by
  rw [Read.val_main_v14_apply]
  refine Finset.sum_congr rfl fun f _ => ?_
  have hl : Read.lidx_main_v14 (ix2 s c) f = ix2 s f := by
    funext a
    match a with
    | ⟨0, _⟩ => rfl
    | ⟨1, _⟩ => rfl
  have hr : Read.idx_main_v13 (Read.ridx_main_v14 (ix2 s c) f) = ix2 c f := by
    funext a
    match a with
    | ⟨0, _⟩ => rfl
    | ⟨1, _⟩ => rfl
  have hd : Read.idx_main_v10 (Read.idx_main_v11 (ix2 s f)) = ix1 s := by
    funext a
    match a with
    | ⟨0, _⟩ => rfl
  rw [hl, Read.val_main_v12_apply, Read.val_main_v13_apply, hr, Ideal.hostDivf_def, sum_value,
    Read.val_main_v11_apply, Read.val_main_v10_apply, hd, Read.val_main_v9_apply, Ideal.maximumf_def,
    Read.val_main_call0_v1_apply, Read.val_main_call0_v0_apply, Read.val_main_cst_2_apply,
    Ideal.ofBits_def, Ideal.ofBits_one_f32, count_value]

end Cert.RefValue
-- ==== Proof.MeanAlgebra.lean ====
import Idealize.ShloMosaic.PureOps.Ideal
import Mathlib.Data.EReal.Basic
import Mathlib.Data.EReal.Operations
import Mathlib.Algebra.BigOperators.Ring.Finset
import Mathlib.Algebra.BigOperators.Group.Finset.Basic
import Mathlib.Tactic.Ring

namespace Cert.MeanAlgebra

open Idealize.ShloMosaic
open scoped BigOperators

/-- A finite sum of coerced reals is the coercion of the real sum. -/
theorem coe_finset_sum {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The maximum with one commutes with the coercion. -/
theorem coe_max_one (n : ℝ) : ((max n 1 : ℝ) : EReal) = max (n : EReal) 1 := by
  rcases le_total n 1 with h | h
  · rw [max_eq_right h, max_eq_right (by exact_mod_cast h), EReal.coe_one]
  · rw [max_eq_left h, max_eq_left (by exact_mod_cast h)]

/-- The real identity behind the law: a masked sum over rows of a projection, scaled, is the
    projection of the scaled masked sum of the rows. -/
theorem real_mean_proj {R : Type} [Fintype R] {K : Nat} (a : R → Fin K → ℝ) (b : Fin K → ℝ)
    (χ : R → Prop) [DecidablePred χ] (c : ℝ) :
    (∑ r, (∑ f, b f * a r f) * (if χ r then (1 : ℝ) else 0)) * c
      = ∑ f, (∑ r, if χ r then a r f else 0) * c * b f := by
  simp only [Finset.sum_mul]
  rw [Finset.sum_comm]
  refine Finset.sum_congr rfl fun f _ => Finset.sum_congr rfl fun r _ => ?_
  by_cases h : χ r
  · simp only [if_pos h]; ring
  · simp only [if_neg h]; ring

/-- The mean over the selected rows of a projected feature is the projection of the selected
    rows' mean feature. Every entry is a real number: distributivity, which the exchange of the
    two sums rests on, fails at the infinities. The divisor is the count of selected rows, kept
    at least one, so it is a nonzero real and the division is a product with its reciprocal. -/
theorem mean_proj {R : Type} [Fintype R] {K : Nat} (A : R → Fin K → EReal) (B : Fin K → EReal)
    (χ : R → Prop) [DecidablePred χ]
    (hA : ∀ r f, ∃ x : ℝ, A r f = (x : EReal)) (hB : ∀ f, ∃ x : ℝ, B f = (x : EReal)) :
    Ideal.div (∑ r, (∑ f, B f * A r f) * (if χ r then (1 : EReal) else 0))
        (max (∑ r, (1 : EReal) * (if χ r then (1 : EReal) else 0)) 1)
      = ∑ f, Ideal.div (∑ r, if χ r then A r f else 0)
          (max 1 (∑ r, if χ r then (1 : EReal) else 0)) * B f := by
  choose a ha using hA
  choose b hb using hB
  have hind : ∀ r, (if χ r then (1 : EReal) else 0) = (((if χ r then (1 : ℝ) else 0) : ℝ) : EReal) := by
    intro r; split_ifs <;> simp
  have hsel : ∀ r f, (if χ r then A r f else 0) = (((if χ r then a r f else 0) : ℝ) : EReal) := by
    intro r f; split_ifs <;> simp [ha]
  have hcount : (∑ r, if χ r then (1 : EReal) else 0)
      = ((∑ r, (if χ r then (1 : ℝ) else 0) : ℝ) : EReal) := by
    rw [← coe_finset_sum]; exact Finset.sum_congr rfl fun r _ => hind r
  have hm : max (∑ r, (if χ r then (1 : ℝ) else 0)) 1 ≠ 0 :=
    ne_of_gt (lt_of_lt_of_le one_pos (le_max_right _ _))
  have hnum : (∑ r, (∑ f, B f * A r f) * (if χ r then (1 : EReal) else 0))
      = ((∑ r, (∑ f, b f * a r f) * (if χ r then (1 : ℝ) else 0) : ℝ) : EReal) := by
    rw [← coe_finset_sum]
    refine Finset.sum_congr rfl fun r _ => ?_
    rw [hind r, EReal.coe_mul, ← coe_finset_sum]
    congr 1
    refine Finset.sum_congr rfl fun f _ => ?_
    rw [ha, hb, EReal.coe_mul]
  have hcol : ∀ f, (∑ r, if χ r then A r f else 0)
      = ((∑ r, (if χ r then a r f else 0) : ℝ) : EReal) := by
    intro f; rw [← coe_finset_sum]; exact Finset.sum_congr rfl fun r _ => hsel r f
  simp only [one_mul]
  rw [hnum, hcount, max_comm (1 : EReal), ← coe_max_one, Ideal.div_coe hm, ← EReal.coe_mul,
    real_mean_proj, ← coe_finset_sum]
  refine Finset.sum_congr rfl fun f _ => ?_
  rw [hcol f, Ideal.div_coe hm, hb f, EReal.coe_mul, EReal.coe_mul]

end Cert.MeanAlgebra
-- ==== Proof.Bridge.lean ====
/-
  The two programs' results are one function of the arguments, entry by entry.

  At (s, c) the kernel's result is (Σ over the pixels of superpixel s of the pixel's class-c score) over the larger of
  the superpixel's pixel count and one; the reference's is Σ_f (the superpixel's feature-f sum over that same
  denominator) · w(c, f). With every feature and weight a real number these are equal: the projection on the class
  weights commutes with summing over the pixels and with the division by the count.
-/
import proofs.«419641_j70119636074681_3_alg».proof.Proof.KernelRun
import proofs.«419641_j70119636074681_3_alg».proof.Proof.KernelForm
import proofs.«419641_j70119636074681_3_alg».proof.Proof.Entry
import proofs.«419641_j70119636074681_3_alg».proof.Proof.RefValue
import proofs.«419641_j70119636074681_3_alg».proof.Proof.MeanAlgebra

noncomputable section

open scoped BigOperators
open Idealize.ShloMosaic Idealize.ShloMosaic.TcCoe Idealize.SL.Sem Idealize.ShloMosaic.ValueIdx

namespace Cert.Bridge

open Cert.KernelIdeal Cert.KernelIdeal.Gen Cert.KernelIdeal.Blocks Cert.KernelIdeal.Accum Cert.KernelIdeal.OutArray
  Cert.KernelIdeal.TailValue Cert.KernelIdeal.Entry

variable (m : (ℓ : Loc nD τ sig) → Buf (Elt Ideal) ℓ)

/-- The three arguments at their literal types. -/
abbrev feats (c : Dev nD) : FVec Ideal S1x512x512x256 .f32 := m ((c.tc : Thread nD τ).loc main_arg0)
abbrev labels (c : Dev nD) : IVec S512x512 32 := m ((c.tc : Thread nD τ).loc main_arg1)
abbrev weights (c : Dev nD) : FVec Ideal S21x256 .f32 := m ((c.tc : Thread nD τ).loc main_arg2)

/-- The flattened label of pixel r is the label image at the pixel's row and column. -/
theorem idArr_apply (c : Dev nD) (r : Fin 262144) :
    idArr m c (ix2 0 r) = m ((c.tc : Thread nD τ).loc main_arg1) (Cert.RefValue.pix r) := by
  rw [idArr_eq]
  exact shapeCast_apply _ shapeCasts_S512x512_S1x262144 (ix2 0 r) (Cert.RefValue.pix r) (by
    rewrite [Shape.rowMajor_val_two, Shape.rowMajor_val_two]
    have hr : r.val < 262144 := r.isLt
    show r.val / 512 * 512 + r.val % 512 = 0 * 262144 + r.val
    omega)

/-- THE BRIDGE: with real features and weights, the kernel program's result is the reference's. -/
theorem result_eq_reference (c : Dev nD)
    (h0 : ∀ i, ∃ x : ℝ, m ((c.tc : Thread nD τ).loc main_arg0) i = (x : EReal))
    (h2 : ∀ i, ∃ x : ℝ, m ((c.tc : Thread nD τ).loc main_arg2) i = (x : EReal)) :
    tailFn (outArr m c)
      = Cert.ReferenceIdeal.Read.val_main_v14 (F := Ideal) (m ((c.tc : Thread nD τ).loc main_arg0))
          (m ((c.tc : Thread nD τ).loc main_arg1)) (m ((c.tc : Thread nD τ).loc main_arg2)) := by
  funext j
  obtain ⟨s, k, rfl⟩ : ∃ (s : Fin 1024) (k : Fin 21), j = ix2 s k := ⟨j 0, j 1, eq_ix2 j⟩
  rw [tailFn_apply, Cert.RefValue.ref_value]
  show Ideal.div (halfSum m c 0 ⟨k.val, Nat.lt_succ_of_lt k.isLt⟩ s + halfSum m c 1 ⟨k.val, Nat.lt_succ_of_lt k.isLt⟩ s)
      (max (halfSum m c 0 21 s + halfSum m c 1 21 s) 1) = _
  have hA : ∀ (r : Fin 262144) (f : Fin 256), ∃ x : ℝ, featArr m c (ix2 r f) = (x : EReal) := fun r f => by
    rw [featArr_eq]; unfold shapeCast; exact h0 _
  have hB : ∀ f : Fin 256, ∃ x : ℝ, wArr m c (ix2 k f) = (x : EReal) := fun f => by
    rw [wArr_eq, truncf_apply]; exact h2 _
  rw [Cert.KernelIdeal.Form.kernel_form m c s k,
    Cert.MeanAlgebra.mean_proj (fun r f => featArr m c (ix2 r f)) (fun f => wArr m c (ix2 k f))
      (fun r => (idArr m c (ix2 0 r)).toInt = (s.val : Int)) hA hB]
  refine Finset.sum_congr rfl fun f _ => ?_
  have hw : wArr m c (ix2 k f) = m ((c.tc : Thread nD τ).loc main_arg2) (ix2 k f) := by rw [wArr_eq, truncf_apply]
  have eN : (∑ r : Fin 262144, if (idArr m c (ix2 0 r)).toInt = (s.val : Int) then featArr m c (ix2 r f) else 0)
      = ∑ r : Fin 262144, if (labels m c (Cert.RefValue.pix r)).toInt = (s.val : Int)
          then (shapeCast S262144x256 (feats m c) shapeCasts_S1x512x512x256_S262144x256 : FVec Ideal S262144x256 .f32) (ix2 r f) else 0 :=
    Finset.sum_congr rfl fun r _ => by rw [idArr_apply m c r, featArr_eq m c]
  have eD : (∑ r : Fin 262144, if (idArr m c (ix2 0 r)).toInt = (s.val : Int) then (1 : EReal) else 0)
      = ∑ r : Fin 262144, if (labels m c (Cert.RefValue.pix r)).toInt = (s.val : Int) then (1 : EReal) else 0 :=
    Finset.sum_congr rfl fun r _ => by rw [idArr_apply m c r]
  rw [eN, eD, hw]

end Cert.Bridge

end
-- ==== Proof.lean ====
/-
  Per-superpixel class potentials: a tiled accumulation against a segment mean followed by a projection.

  Both programs take features x (262144 pixels × 256), a label per pixel, and class weights w (21 × 256), and return,
  for each superpixel s < 1024 and class c, the mean over the pixels labelled s of the pixel's score Σ_f w(c, f) · x(i, f),
  the mean's denominator being the larger of the pixel count and one (an empty superpixel gives zero); a label outside
  [0, 1024) belongs to no superpixel in either program.

  The kernel walks the pixels in 128 tiles of 2048, two halves of 64 tiles. Per tile it forms the 21 score rows, stacks
  a row of ones under them, and multiplies by the tile's 0/1 membership matrix, which sums scores and counts per
  superpixel in one product; a block carried across the half's tiles accumulates these, each half writes its block out,
  and the host adds the two blocks, divides the 21 score rows by the clipped count row and transposes.
  The reference sums features and ones per superpixel, divides the feature sums by the clipped counts, and only then
  projects on the class weights.

  At the ideal values the kernel's result at (s, c) is (Σ_{i ∈ s} Σ_f w(c, f) x(i, f)) / max(n_s, 1) and the reference's is
  Σ_f ((Σ_{i ∈ s} x(i, f)) / max(n_s, 1)) · w(c, f). They agree because the inputs are finite: with real entries the
  product distributes over the sums and the division by the nonzero real max(n_s, 1) moves across them. The three frames
  are the two generated frame runs and the reference's generated run; the idealization rewrote nothing.
-/
import proofs.«419641_j70119636074681_3_alg».proof.Defs
import proofs.«419641_j70119636074681_3_alg».proof.Proof.Gen.Kernel
import proofs.«419641_j70119636074681_3_alg».proof.Proof.Gen.Kernel.Skeleton
import proofs.«419641_j70119636074681_3_alg».proof.Proof.Gen.Kernel.Launch
import proofs.«419641_j70119636074681_3_alg».proof.Proof.Gen.Kernel.Points
import proofs.«419641_j70119636074681_3_alg».proof.Proof.Gen.Kernel.Frame
import proofs.«419641_j70119636074681_3_alg».proof.Proof.Gen.KernelIdeal
import proofs.«419641_j70119636074681_3_alg».proof.Proof.Gen.KernelIdeal.Skeleton
import proofs.«419641_j70119636074681_3_alg».proof.Proof.Gen.KernelIdeal.Launch
import proofs.«419641_j70119636074681_3_alg».proof.Proof.Gen.KernelIdeal.Points
import proofs.«419641_j70119636074681_3_alg».proof.Proof.Gen.KernelIdeal.Frame
import proofs.«419641_j70119636074681_3_alg».proof.Proof.Gen.ReferenceIdeal
import proofs.«419641_j70119636074681_3_alg».proof.Proof.Gen.ReferenceIdeal.Run
import proofs.«419641_j70119636074681_3_alg».proof.Proof.Gen.ReferenceIdeal.Read
import proofs.«419641_j70119636074681_3_alg».proof.Proof.Gen.Pre_finite_inputs
import proofs.«419641_j70119636074681_3_alg».proof.Proof.FiniteInputs
import proofs.«419641_j70119636074681_3_alg».proof.Proof.Bridge
import Idealize.ShloMosaic.Adequacy
import Idealize.ShloMosaic.Init

noncomputable section

namespace Cert.Proof

open Idealize.ShloMosaic Idealize.SL.Sem

/-- The word-level kernel runs and keeps its arguments: the generated frame run. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, with finite features and weights, both programs end with the
    same result: the kernel's closing operations of its two halves' tile sums are the reference's projected
    segment mean, entry by entry. -/
theorem algebraic : Cert.algebraic_KernelIdeal_ReferenceIdeal := by
  intro m ρ m' ρ' hpre hagree
  refine ⟨fun c => Cert.KernelIdeal.TailValue.tailFn (Cert.KernelIdeal.OutArray.outArr m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨h0, h2⟩ := Cert.FiniteInputs.real_of_pre _ _ _ (hpre c)
  exact (Cert.Bridge.result_eq_reference m c h0 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
